-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S128x64 .f32 .bf16
  ∧ IdealRules.truncf_extf.Statement Cert.KernelIdeal.S128x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S352256x64 : Shape := ⟨2, ![352256, 64]⟩
abbrev S704512x1 : Shape := ⟨2, ![704512, 1]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S704512x1 : S_.BroadcastsInDim S704512x1 (![] : Fin 0 → Fin S704512x1.rank)
  reducesTo_S704512x1_S_d0_1 : S704512x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S16x4096 .f32) (main_arg1 : IVec S352256x64 32) (main_arg2 : FVec F S704512x1 .f32) (main_arg3 : FVec F S704512x1 .f32) (main_arg4 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S704512x1 .f32 := Host.absf main_arg2
  let main_cst_0 : FVec F S_ .f32 := constant S_ .f32 0x7F800000#32
  let main_v5 : FVec F S704512x1 .f32 := broadcastInDim S704512x1 ![] bcast_S_S704512x1 main_cst_0
  let main_v6 : IVec S704512x1 1 := cmpf .olt main_v4 main_v5
  let main_c_1 : IVec S_ 1 := constantI S_ 1 1#1
  let main_v7 : IVec S_ 1 := (fun x v => Host.reduce IntOp.andi x v reducesTo_S704512x1_S_d0_1 h_S_) main_v6 main_c_1
  let main_v8 : IVec S_ 1 := andi main_v3 main_v7
  let main_v9 : FVec F S704512x1 .f32 := Host.absf main_arg3
  let main_cst_2 : FVec F S_ .f32 := constant S_ .f32 0x7F800000#32
  let main_v10 : FVec F S704512x1 .f32 := broadcastInDim S704512x1 ![] bcast_S_S704512x1 main_cst_2
  let main_v11 : IVec S704512x1 1 := cmpf .olt main_v9 main_v10
  let main_c_3 : IVec S_ 1 := constantI S_ 1 1#1
  let main_v12 : IVec S_ 1 := (fun x v => Host.reduce IntOp.andi x v reducesTo_S704512x1_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S16x4096 : Shape := ⟨2, ![16, 4096]⟩
abbrev S352256x64 : Shape := ⟨2, ![352256, 64]⟩
abbrev S704512x1 : Shape := ⟨2, ![704512, 1]⟩
abbrev S11008 : Shape := ⟨1, ![11008]⟩
abbrev S5504x4096 : Shape := ⟨2, ![5504, 4096]⟩
abbrev S11008x64 : Shape := ⟨2, ![11008, 64]⟩
abbrev S5504x64 : Shape := ⟨2, ![5504, 64]⟩
abbrev S5504 : Shape := ⟨1, ![5504]⟩
abbrev S1x5504 : Shape := ⟨2, ![1, 5504]⟩
abbrev S16x64x64 : Shape := ⟨3, ![16, 64, 64]⟩
abbrev S_ : Shape := ⟨0, ![]⟩
abbrev S16x64 : Shape := ⟨2, ![16, 64]⟩
abbrev S64x4096 : Shape := ⟨2, ![64, 4096]⟩
abbrev S16x5504 : Shape := ⟨2, ![16, 5504]⟩
abbrev S128x4096 : Shape := ⟨2, ![128, 4096]⟩
abbrev S128x64 : Shape := ⟨2, ![128, 64]⟩
abbrev S1x128 : Shape := ⟨2, ![1, 128]⟩
abbrev S16x128 : Shape := ⟨2, ![16, 128]⟩
abbrev S16x11008 : Shape := ⟨2, ![16, 11008]⟩

abbrev nBuf : Space → Nat
  | .hbm => 44
  | .vmem => 21
  | .smem => 0
  | _ => 0

abbrev bufTy : (tb : Table) → Fin (tcTables nBuf tb) → BufTy
  | .hbm, ⟨0, _⟩ => ⟨S16x4096, .f32⟩
  | .hbm, ⟨1, _⟩ => ⟨S352256x64, .i32⟩
  | .hbm, ⟨2, _⟩ => ⟨S704512x1, .f32⟩
  | .hbm, ⟨3, _⟩ => ⟨S704512x1, .f32⟩
  | .hbm, ⟨4, _⟩ => ⟨S11008, .f32⟩
  | .hbm, ⟨5, _⟩ => ⟨S5504x4096, .i32⟩
  | .hbm, ⟨6, _⟩ => ⟨S11008x64, .f32⟩
  | .hbm, ⟨7, _⟩ => ⟨S11008x64, .f32⟩
  | .hbm, ⟨8, _⟩ => ⟨S5504x64, .f32⟩
  | .hbm, ⟨9, _⟩ => ⟨S5504x64, .f32⟩
  | .hbm, ⟨10, _⟩ => ⟨S5504x64, .f32⟩
  | .hbm, ⟨11, _⟩ => ⟨S5504x64, .f32⟩
  | .hbm, ⟨12, _⟩ => ⟨S5504, .f32⟩
  | .hbm, ⟨13, _⟩ => ⟨S1x5504, .f32⟩
  | .hbm, ⟨14, _⟩ => ⟨S5504, .f32⟩
  | .hbm, ⟨15, _⟩ => ⟨S1x5504, .f32⟩
  | .hbm, ⟨16, _⟩ => ⟨S16x64x64, .f32⟩
  | .hbm, ⟨17, _⟩ => ⟨S_, .f32⟩
  | .hbm, ⟨18, _⟩ => ⟨S16x64, .f32⟩
  | .hbm, ⟨19, _⟩ => ⟨S64x4096, .i32⟩
  | .hbm, ⟨20, _⟩ => ⟨S64x4096, .i32⟩
  | .hbm, ⟨21, _⟩ => ⟨S_, .i32⟩
  | .hbm, ⟨22, _⟩ => ⟨S_, .i32⟩
  | .hbm, ⟨23, _⟩ => ⟨S64x4096, .i32⟩
  | .hbm, ⟨24, _⟩ => ⟨S64x4096, .i32⟩
  | .hbm, ⟨25, _⟩ => ⟨S64x4096, .i32⟩
  | .hbm, ⟨26, _⟩ => ⟨S_, .i32⟩
  | .hbm, ⟨27, _⟩ => ⟨S64x4096, .i32⟩
  | .hbm, ⟨28, _⟩ => ⟨S64x4096, .i1⟩
  | .hbm, ⟨29, _⟩ => ⟨S64x4096, .i32⟩
  | .hbm, ⟨30, _⟩ => ⟨S64x4096, .i32⟩
  | .hbm, ⟨31, _⟩ => ⟨S_, .i32⟩
  | .hbm, ⟨32, _⟩ => ⟨S64x4096, .i32⟩
  | .hbm, ⟨33, _⟩ => ⟨S64x4096, .i1⟩
  | .hbm, ⟨34, _⟩ => ⟨S64x4096, .i1⟩
  | .hbm, ⟨35, _⟩ => ⟨S_, .i32⟩
  | .hbm, ⟨36, _⟩ => ⟨S64x4096, .i32⟩
  | .hbm, ⟨37, _⟩ => ⟨S64x4096, .i32⟩
  | .hbm, ⟨38, _⟩ => ⟨S64x4096, .i32⟩
  | .hbm, ⟨39, _⟩ => ⟨S64x4096, .i1⟩
  | .hbm, ⟨40, _⟩ => ⟨S64x4096, .bf16⟩
  | .hbm, ⟨41, _⟩ => ⟨S16x5504, .f32⟩
  | .hbm, ⟨42, _⟩ => ⟨S16x5504, .f32⟩
  | .hbm, ⟨43, _⟩ => ⟨S16x11008, .f32⟩
  | .local _ .vmem, ⟨0, _⟩ => ⟨S16x4096, .f32⟩
  | .local _ .vmem, ⟨1, _⟩ => ⟨S128x4096, .i32⟩
  | .local _ .vmem, ⟨2, _⟩ => ⟨S128x4096, .i32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S1x128, .f32⟩
  | .local _ .vmem, ⟨8, _⟩ => ⟨S1x128, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S1x128, .f32⟩
  | .local _ .vmem, ⟨14, _⟩ => ⟨S1x128, .f32⟩
  | .local _ .vmem, ⟨15, _⟩ => ⟨S16x64, .f32⟩
  | .local _ .vmem, ⟨16, _⟩ => ⟨S64x4096, .bf16⟩
  | .local _ .vmem, ⟨17, _⟩ => ⟨S16x128, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S352256x64_S5504x4096 : S352256x64.ShapeCasts S5504x4096
  shapeCasts_S704512x1_S11008x64 : S704512x1.ShapeCasts S11008x64
  slices_S11008x64_S5504x64_0_0 : S11008x64.Slices ![0, 0] S5504x64
  slices_S11008x64_S5504x64_5504_0 : S11008x64.Slices ![5504, 0] S5504x64
  slices_S11008_S5504_0 : S11008.Slices ![0] S5504
  shapeCasts_S5504_S1x5504 : S5504.ShapeCasts S1x5504
  slices_S11008_S5504_5504 : S11008.Slices ![5504] S5504
  shapeCasts_S16x4096_S16x64x64 : S16x4096.ShapeCasts S16x64x64
  reducesTo_S16x64x64_S16x64_d2 : S16x64x64.ReducesTo [2] S16x64
  h_S_ : 0 < S_.numel
  bcast_S_S64x4096 : S_.BroadcastsInDim S64x4096 (![] : Fin 0 → Fin S64x4096.rank)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S16x4096_S16x4096_0_0 : ∀ a, (![0, 0] : Fin 2 → Nat) a + S16x4096.size a ≤ S16x4096.size a
  h_S16x4096 : 0 < S16x4096.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  concatenates_S16x5504_S16x5504_S16x11008_d1 : Shape.Concatenates [S16x5504, S16x5504] S16x11008 1
  dot_S128x64_S64x4096_S128x4096_1_0_0_1_n_n_wf : DotDims.WF S128x64 S64x4096 S128x4096 [1] [0] [0] [1] [] []
  dot_S16x4096_S128x4096_S16x128_1_1_0_0_n_n_wf : DotDims.WF S16x4096 S128x4096 S16x128 [1] [1] [0] [0] [] []
  dot_S16x64_S128x64_S16x128_1_1_0_0_n_n_wf : DotDims.WF S16x64 S128x64 S16x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S5504x4096.size a
  hwx0_1 : ∀ i : grid0.Coords, EltTy.bits .i32 = 32 ∨ (Rect.block (s := S5504x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S5504x64.size a
  hwx0_2 : ∀ i : grid0.Coords, EltTy.bits .f32 = 32 ∨ (Rect.block (s := S5504x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S5504x64.size a
  hwx0_3 : ∀ i : grid0.Coords, EltTy.bits .f32 = 32 ∨ (Rect.block (s := S5504x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x5504.size a
  hwx0_4 : ∀ i : grid0.Coords, EltTy.bits .f32 = 32 ∨ (Rect.block (s := S1x5504) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S5504x64.size a
  hwx0_5 : ∀ i : grid0.Coords, EltTy.bits .f32 = 32 ∨ (Rect.block (s := S5504x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S5504x64.size a
  hwx0_6 : ∀ i : grid0.Coords, EltTy.bits .f32 = 32 ∨ (Rect.block (s := S5504x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x5504.size a
  hwx0_7 : ∀ i : grid0.Coords, EltTy.bits .f32 = 32 ∨ (Rect.block (s := S1x5504) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64.size a ≤ S16x64.size a
  hwx0_8 : ∀ i : grid0.Coords, EltTy.bits .f32 = 32 ∨ (Rect.block (s := S16x64) S16x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x4096.size a ≤ S64x4096.size a
  hwx0_9 : ∀ i : grid0.Coords, EltTy.bits .bf16 = 32 ∨ (Rect.block (s := S64x4096) S64x4096.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S16x5504.size a
  hwx0_10 : ∀ i : grid0.Coords, EltTy.bits .f32 = 32 ∨ (Rect.block (s := S16x5504) S16x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x128.size a ≤ S16x5504.size a
  hwx0_11 : ∀ i : grid0.Coords, EltTy.bits .f32 = 32 ∨ (Rect.block (s := S16x5504) S16x128.size (cc0_transform_11 i) (hinb0_11 i)).WholeWords (EltTy.packing .f32)

variable [Facts₀]

def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S16x4096_S128x4096_S16x128_1_1_0_0_n_n : DotDims S16x4096 S128x4096 S16x128 where
  lhsContracting := [1]
  rhsContracting := [1]
  lhsNonContracting := [0]
  rhsNonContracting := [0]
  lhsBatch := []
  rhsBatch := []
  wf := dot_S16x4096_S128x4096_S16x128_1_1_0_0_n_n_wf
def dot_S16x64_S128x64_S16x128_1_1_0_0_n_n : DotDims S16x64 S128x64 S16x128 where
  lhsContracting := [1]
  rhsContracting := [1]
  lhsNonContracting := [0]
  rhsNonContracting := [0]
  lhsBatch := []
  rhsBatch := []
  wf := dot_S16x64_S128x64_S16x128_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S16x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S64x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18_0) S16x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18_1) S16x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x4096 : Shape := ⟨2, ![16, 4096]⟩
abbrev S352256x64 : Shape := ⟨2, ![352256, 64]⟩
abbrev S704512x1 : Shape := ⟨2, ![704512, 1]⟩
abbrev S11008 : Shape := ⟨1, ![11008]⟩
abbrev S_ : Shape := ⟨0, ![]⟩
abbrev S704512x64 : Shape := ⟨2, ![704512, 64]⟩
abbrev S11008x4096 : Shape := ⟨2, ![11008, 4096]⟩
abbrev S4096x11008 : Shape := ⟨2, ![4096, 11008]⟩
abbrev S16x11008 : Shape := ⟨2, ![16, 11008]⟩
abbrev S1x11008 : Shape := ⟨2, ![1, 11008]⟩

abbrev nBuf : Space → Nat
  | .hbm => 26
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S352256x64, .i32⟩
  | .hbm, ⟨2, _⟩ => ⟨S704512x1, .f32⟩
  | .hbm, ⟨3, _⟩ => ⟨S704512x1, .f32⟩
  | .hbm, ⟨4, _⟩ => ⟨S11008, .f32⟩
  | .hbm, ⟨5, _⟩ => ⟨S_, .i32⟩
  | .hbm, ⟨6, _⟩ => ⟨S352256x64, .i32⟩
  | .hbm, ⟨7, _⟩ => ⟨S352256x64, .i32⟩
  | .hbm, ⟨8, _⟩ => ⟨S_, .i32⟩
  | .hbm, ⟨9, _⟩ => ⟨S352256x64, .i32⟩
  | .hbm, ⟨10, _⟩ => ⟨S352256x64, .i32⟩
  | .hbm, ⟨11, _⟩ => ⟨S_, .i32⟩
  | .hbm, ⟨12, _⟩ => ⟨S352256x64, .i32⟩
  | .hbm, ⟨13, _⟩ => ⟨S352256x64, .i32⟩
  | .hbm, ⟨14, _⟩ => ⟨S704512x64, .i32⟩
  | .hbm, ⟨15, _⟩ => ⟨S704512x64, .f32⟩
  | .hbm, ⟨16, _⟩ => ⟨S704512x64, .f32⟩
  | .hbm, ⟨17, _⟩ => ⟨S704512x64, .f32⟩
  | .hbm, ⟨18, _⟩ => ⟨S704512x64, .f32⟩
  | .hbm, ⟨19, _⟩ => ⟨S704512x64, .f32⟩
  | .hbm, ⟨20, _⟩ => ⟨S11008x4096, .f32⟩
  | .hbm, ⟨21, _⟩ => ⟨S4096x11008, .f32⟩
  | .hbm, ⟨22, _⟩ => ⟨S16x11008, .f32⟩
  | .hbm, ⟨23, _⟩ => ⟨S1x11008, .f32⟩
  | .hbm, ⟨24, _⟩ => ⟨S16x11008, .f32⟩
  | .hbm, ⟨25, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S352256x64 : S_.BroadcastsInDim S352256x64 (![] : Fin 0 → Fin S352256x64.rank)
  concatenates_S352256x64_S352256x64_S704512x64_d0 : Shape.Concatenates [S352256x64, S352256x64] S704512x64 0
  bcast_S704512x1_S704512x64_0_1 : S704512x1.BroadcastsInDim S704512x64 (![0, 1] : Fin 2 → Fin S704512x64.rank)
  shapeCasts_S704512x64_S11008x4096 : S704512x64.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S4096x11008_S16x11008_1_0_0_1_n_n_wf : DotDims.WF S16x4096 S4096x11008 S16x11008 [1] [0] [0] [1] [] []

variable [Facts₀]

def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.Finite.lean ====
/-
  What the precondition says: each of the four float arguments (the activations, the scales, the zero points, the
  bias) passes the test "every entry has absolute value below +∞", and the four answers are joined by `and`. So
  under the precondition every entry of each of them is a real number. The packed integer weights are not tested.
-/
import proofs.«430923_j18167711662189_3_alg».proof.Pre_finite_inputs
import proofs.«430923_j18167711662189_3_alg».proof.Proof.LibFinite
import Idealize.ShloMosaic.Lib.Affine
import Idealize.ShloMosaic.Lib.ValueIdx

noncomputable section

namespace Cert.Finite

open Idealize.ShloMosaic Cert.Pre_finite_inputs

variable [Facts]

/-- Under the precondition the activations, scales, zero points and bias hold real numbers. -/
theorem reals_of_pre (x : FVec Ideal S16x4096 .f32) (w : IVec S352256x64 32) (s z : FVec Ideal S704512x1 .f32)
    (b : FVec Ideal S11008 .f32) (h : fn (F := Ideal) x w s z b = fun _ => 1#1) :
    (∀ i, ∃ r : ℝ, x i = (r : EReal)) ∧ (∀ i, ∃ r : ℝ, s i = (r : EReal))
      ∧ (∀ i, ∃ r : ℝ, z i = (r : EReal)) ∧ (∀ i, ∃ r : ℝ, b i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨FiniteTest.real_of_all_abs_lt_inf_at _ _ _ x _ h1, FiniteTest.real_of_all_abs_lt_inf_at _ _ _ s _ h2,
    FiniteTest.real_of_all_abs_lt_inf_at _ _ _ z _ h3, FiniteTest.real_of_all_abs_lt_inf_at _ _ _ b _ h4⟩

end Cert.Finite

end
-- ==== Proof.DequantLaw.lean ====
/-
  The algebra that joins the two programs, with no program in sight.

  One output entry is a sum over the 4096 input columns `k`, which fall into 64 groups of 64 consecutive columns:
  column `k` lies in group `k / 64`, and column `64 g + j` is the `j`-th of group `g`. Each group carries a scale
  `s g` and a zero point `z g`; each column carries an activation `x k` and a 4-bit code `n k`.

  The reference dequantizes first: `∑ k, x k * ((n k - z (k/64)) * s (k/64))`.

  The kernel never forms the per-column zero point. It expands the scale to columns by a product with the 0/1
  selector `e g k = [g = k/64]` (twice: once for the scale, once for a correction term `s - s` that is zero on
  real numbers), and it subtracts the zero-point term group by group, against the per-group sums of the activation:
  `∑ k, x k * (n k * (∑ g, s g * e g k + ∑ g, (s g - s g) * e g k)) - ∑ g, (∑ j, x (64 g + j)) * (z g * s g)`.

  Over the real numbers these agree: the selector sum picks out `s (k/64)`, the correction vanishes, the double sum
  over (group, position in group) is the sum over columns, and `x * (n * s) - x * (z * s) = x * ((n - z) * s)`.
  Distributing over a difference is false at the infinities of the extended reals, so the extended-real statement
  asks every entry to be a real number.
-/
import Idealize.ShloMosaic.PureOps.Ideal
import Idealize.ShloMosaic.PureOps.Ideal.Laws

noncomputable section

namespace DequantLaw

open Finset

/-- The group of column `k`. -/
def grp (k : Fin 4096) : Fin 64 := ⟨k.val / 64, by have := k.isLt; omega⟩

/-- The `j`-th column of group `g`. -/
def col (g j : Fin 64) : Fin 4096 := ⟨64 * g.val + j.val, by have := g.isLt; have := j.isLt; omega⟩

theorem grp_col (g j : Fin 64) : grp (col g j) = g := Fin.ext (by
  have := j.isLt
  show (64 * g.val + j.val) / 64 = g.val
  omega)

/-- Pairs (group, position in the group) are the columns. -/
def pairs : Fin 64 × Fin 64 ≃ Fin 4096 := finProdFinEquiv

theorem pairs_eq_col (g j : Fin 64) : pairs (g, j) = col g j := Fin.ext (by
  show j.val + 64 * g.val = 64 * g.val + j.val
  omega)

/-- The sum over columns, taken group by group. -/
theorem sum_by_groups {M : Type*} [AddCommMonoid M] (f : Fin 4096 → M) :
    ∑ k, f k = ∑ g : Fin 64, ∑ j : Fin 64, f (col g j) := by
  refine (Equiv.sum_comp pairs f).symm.trans ?_
  rw [Fintype.sum_prod_type]
  exact Finset.sum_congr rfl fun g _ => Finset.sum_congr rfl fun j _ => by rw [pairs_eq_col]

/-- The identity over the real numbers. -/
theorem real_law (x n : Fin 4096 → ℝ) (s z : Fin 64 → ℝ) :
    (∑ k, x k * (n k * ((∑ g, s g * (if g = grp k then (1 : ℝ) else 0))
        + ∑ g, (s g - s g) * (if g = grp k then (1 : ℝ) else 0))))
      - (∑ g, (0 + ∑ j, x (col g j)) * (z g * s g))
    = ∑ k, x k * ((n k - z (grp k)) * s (grp k)) := by
  have h1 : ∀ k, (∑ g, s g * (if g = grp k then (1 : ℝ) else 0)) = s (grp k) := by
    intro k; simp
  have h2 : ∀ k, (∑ g : Fin 64, (s g - s g) * (if g = grp k then (1 : ℝ) else 0)) = 0 := by
    intro k; simp
  have h3 : (∑ g, (0 + ∑ j, x (col g j)) * (z g * s g)) = ∑ k, x k * (z (grp k) * s (grp k)) := by
    rw [sum_by_groups fun k => x k * (z (grp k) * s (grp k))]
    refine Finset.sum_congr rfl fun g _ => ?_
    rw [zero_add, Finset.sum_mul]
    exact Finset.sum_congr rfl fun j _ => by rw [grp_col]
  simp only [h1, h2, h3, add_zero]
  rw [← Finset.sum_sub_distrib]
  exact Finset.sum_congr rfl fun k _ => by ring

/-- A finite sum of real numbers, taken in the extended reals, is the real sum. -/
theorem coe_sum {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The identity on extended reals all of whose entries are real numbers; the selector is given by its values. -/
theorem ereal_law (x n : Fin 4096 → EReal) (s z : Fin 64 → EReal) (e : Fin 64 → Fin 4096 → EReal)
    (hx : ∀ k, ∃ r : ℝ, x k = (r : EReal)) (hn : ∀ k, ∃ r : ℝ, n k = (r : EReal))
    (hs : ∀ g, ∃ r : ℝ, s g = (r : EReal)) (hz : ∀ g, ∃ r : ℝ, z g = (r : EReal))
    (he : ∀ g k, e g k = if g = grp k then (1 : EReal) else 0) :
    (∑ k, x k * (n k * ((∑ g, s g * e g k) + ∑ g, (s g - s g) * e g k)))
      - (∑ g, (0 + ∑ j, x (col g j)) * (z g * s g))
    = ∑ k, x k * ((n k - z (grp k)) * s (grp k)) := by
  choose xr hxr using hx
  choose nr hnr using hn
  choose sr hsr using hs
  choose zr hzr using hz
  have hx' : x = fun k => (xr k : EReal) := funext hxr
  have hn' : n = fun k => (nr k : EReal) := funext hnr
  have hs' : s = fun g => (sr g : EReal) := funext hsr
  have hz' : z = fun g => (zr g : EReal) := funext hzr
  have he' : ∀ g k, e g k = (((if g = grp k then (1 : ℝ) else 0) : ℝ) : EReal) := by
    intro g k; rw [he]; split <;> simp
  subst hx' hn' hs' hz'
  simp only [he', ← EReal.coe_mul, ← EReal.coe_sub, ← EReal.coe_add, coe_sum, ← EReal.coe_zero]
  exact congrArg _ (real_law xr nr sr zr)

end DequantLaw

end
-- ==== Proof.Spec.lean ====
/-
  The function both programs compute, entry by entry, as a function of the five argument arrays.

  The dense weight has 11008 output rows and 4096 columns; the columns of a row fall into 64 groups of 64. Group `g` of
  row `R` is group number `64 R + g` of the 704512 quantization groups, and carries one scale and one zero point (the
  one-column arrays `s` and `z`). Its 64 codes are 4-bit numbers packed two to a word: rows `R < 5504` take the
  HIGH four bits of the words of the packed array's row `64 R + g`, rows `R ≥ 5504` the LOW four bits of the words of
  row `64 (R - 5504) + g`, so that rows `R` and `R + 5504` share their words. Entry (p, R) of the result is
      `∑ k, x (p, k) * ((code R k - zero R (k / 64)) * scale R (k / 64)) + bias R`.
-/
import proofs.«430923_j18167711662189_3_alg».proof.Proof.DequantLaw
import Idealize.ShloMosaic.Lib.ValueIdx

noncomputable section

namespace DequantSpec

open Idealize.ShloMosaic Idealize.ShloMosaic.ValueIdx DequantLaw

abbrev SX : Shape := ⟨2, ![16, 4096]⟩
abbrev SW : Shape := ⟨2, ![352256, 64]⟩
abbrev SP : Shape := ⟨2, ![704512, 1]⟩
abbrev SB : Shape := ⟨1, ![11008]⟩
abbrev SO : Shape := ⟨2, ![16, 11008]⟩

/-- The number of row `R`'s group `g` among all quantization groups. -/
def groupOf (R : Fin 11008) (g : Fin 64) : Fin 704512 := ⟨64 * R.val + g.val, by have := R.isLt; have := g.isLt; omega⟩

/-- A per-group parameter (scale or zero point) of row `R`, group `g`. -/
def param (a : SP.Idx → EReal) (R : Fin 11008) (g : Fin 64) : EReal := a (ix2 (groupOf R g) (0 : Fin 1))

/-- The packed word that holds the code of column `k` for rows `r` and `r + 5504`. -/
def word (w : SW.Idx → BitVec 32) (r : Fin 5504) (k : Fin 4096) : BitVec 32 :=
  w (ix2 (⟨64 * r.val + k.val / 64, by have := r.isLt; have := k.isLt; omega⟩ : Fin 352256)
    (⟨k.val % 64, Nat.mod_lt _ (by decide)⟩ : Fin 64))

/-- The high four bits of a word, as a number. -/
def hiCode (v : BitVec 32) : EReal := (((IntOp.andi (IntOp.shrsi .vector v 4#32) 15#32).toInt : ℝ) : EReal)

/-- The low four bits of a word, as a number. -/
def loCode (v : BitVec 32) : EReal := (((IntOp.andi v 15#32).toInt : ℝ) : EReal)

/-- The code of row `R`, column `k`. -/
def code (w : SW.Idx → BitVec 32) (R : Fin 11008) (k : Fin 4096) : EReal :=
  if h : R.val < 5504 then hiCode (word w ⟨R.val, h⟩ k)
  else loCode (word w ⟨R.val - 5504, by have := R.isLt; omega⟩ k)

theorem code_real (w : SW.Idx → BitVec 32) (R : Fin 11008) (k : Fin 4096) : ∃ r : ℝ, code w R k = (r : EReal) := by
  unfold code; split
  · exact ⟨_, rfl⟩
  · exact ⟨_, rfl⟩

/-- Entry (p, R) of the result. -/
def entry (x : SX.Idx → EReal) (w : SW.Idx → BitVec 32) (s z : SP.Idx → EReal) (b : SB.Idx → EReal)
    (p : Fin 16) (R : Fin 11008) : EReal :=
  (∑ k : Fin 4096, x (ix2 p k) * ((code w R k - param z R (grp k)) * param s R (grp k))) + b (ix1 R)

/-- The result array. -/
def G (x : SX.Idx → EReal) (w : SW.Idx → BitVec 32) (s z : SP.Idx → EReal) (b : SB.Idx → EReal) : SO.Idx → EReal :=
  fun i => entry x w s z b ⟨(i 0).val, (i 0).isLt⟩ ⟨(i 1).val, (i 1).isLt⟩

/-- What the kernel forms for entry (p, R) — the code times the scale expanded through a 0/1 selector `e` (plus the
    expansion of `scale - scale`), summed against the activations; less the zero points times scales against the
    per-group activation sums; plus the bias — is that entry, when the activations, scales and zero points are real
    numbers and `e g k` is 1 exactly when `g` is column `k`'s group. -/
theorem kernel_entry (x : SX.Idx → EReal) (w : SW.Idx → BitVec 32) (s z : SP.Idx → EReal) (b : SB.Idx → EReal)
    (hx : ∀ i, ∃ r : ℝ, x i = (r : EReal)) (hs : ∀ i, ∃ r : ℝ, s i = (r : EReal)) (hz : ∀ i, ∃ r : ℝ, z i = (r : EReal))
    (e : Fin 64 → Fin 4096 → EReal) (he : ∀ g k, e g k = if g = grp k then (1 : EReal) else 0)
    (p : Fin 16) (R : Fin 11008) :
    (∑ k : Fin 4096, x (ix2 p k) * (code w R k * ((∑ g : Fin 64, param s R g * e g k)
        + ∑ g : Fin 64, (param s R g - param s R g) * e g k)))
      - (∑ g : Fin 64, (0 + ∑ j : Fin 64, x (ix2 p (col g j))) * (param z R g * param s R g)) + b (ix1 R)
    = entry x w s z b p R :=
  congrArg (· + b (ix1 R))
    (ereal_law (fun k => x (ix2 p k)) (code w R) (param s R) (param z R) e (fun k => hx _) (code_real w R)
      (fun g => hs _) (fun g => hz _) he)

end DequantSpec

end
-- ==== Proof.WordFacts.lean ====
/-
  Facts about 32-bit words that the two programs' integer parts rest on.

  * The selector. The kernel's wrapper builds the 0/1 matrix "group `g` owns column `k`" by comparing a row counter with
    `floor_divide(column counter, 64)`. As lowered, floor division is the truncating quotient, less one when the operands'
    signs differ and the remainder is not zero. A column number is nonnegative and so is 64, so the correction never
    applies and the result is `k / 64`; the column numbers are the 4096 values below, so this is checked value by value.
  * The codes. Both programs take a 4-bit code out of a packed word by an arithmetic shift and a mask. A shift by a
    literal amount below the width is the same on the host and on the vector unit, and a shift by zero changes nothing.
-/
import Idealize.ShloMosaic.PureOps.Ideal

noncomputable section

namespace WordFacts

open Idealize.ShloMosaic

/-- The sign of a word as a word: 0, -1 or 1. -/
def sgn (x : BitVec 32) : BitVec 32 := if x = 0 then 0 else if x.msb then -1 else 1

/-- Floor division by 64, as lowered: the truncating quotient, less one when the signs differ and the remainder is not zero. -/
def floorDiv64 (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- On a column number it is the column's group. -/
theorem floorDiv64_col : ∀ k : Fin 4096, floorDiv64 (BitVec.ofNat 32 k.val) = BitVec.ofNat 32 (k.val / 64) := by
  decide +kernel

/-- Two group numbers, as words, are equal exactly when they are equal. -/
theorem eq_bit : ∀ g q : Fin 64,
    IntOp.cmpi .eq (BitVec.ofNat 32 g.val) (BitVec.ofNat 32 q.val) = if g = q then 1#1 else 0#1 := by
  decide +kernel

/-- An arithmetic shift by four places is the same word on the host and on the vector unit. -/
theorem shr4_host (x : BitVec 32) : IntOp.shrsi .host x 4#32 = IntOp.shrsi .vector x 4#32 := rfl

/-- An arithmetic shift by no places leaves the word. -/
theorem shr0 (x : BitVec 32) : IntOp.shrsi .vector x 0#32 = x := by
  unfold IntOp.shrsi
  rw [if_pos (by decide)]
  simp [BitVec.sshiftRight']

end WordFacts

end
-- ==== Proof.RefIsG.lean ====
/-
  The reference computes `G`.

  Its last stage is `x · Wᵀ + bias` with `W` the dequantized weight: entry (p, R) is the sum over columns `k` of
  `x (p, k)` times `W (R, k)`, and `W (R, k)` is entry number `4096 R + k` of the [704512, 64] array
  `(codes - zero) * scale` read row-major, that is its entry (64 R + k / 64, k % 64). The codes array is the high
  nibbles of the packed array stacked on top of its low nibbles, so row `a` of it is row `a` of the high nibbles when
  `a < 352256` (that is when `R < 5504`) and row `a - 352256` of the low nibbles otherwise.
-/
import proofs.«430923_j18167711662189_3_alg».proof.Proof.Gen.ReferenceIdeal.Read
import proofs.«430923_j18167711662189_3_alg».proof.Proof.Spec
import proofs.«430923_j18167711662189_3_alg».proof.Proof.WordFacts

noncomputable section

namespace Cert.ReferenceIdeal.RefValue

open Cert.ReferenceIdeal Cert.ReferenceIdeal.Gen Cert.ReferenceIdeal.Read
open Idealize.ShloMosaic Idealize.ShloMosaic.ValueIdx DequantLaw DequantSpec

/-- Column `k`'s place within its group. -/
def pos (k : Fin 4096) : Fin 64 := ⟨k.val % 64, Nat.mod_lt _ (by decide)⟩

/-- The stacked codes at row `64 R + k / 64`, place `k % 64`, as a number: the code of (R, k). -/
theorem codes_apply (x1 : IVec S352256x64 32) (R : Fin 11008) (k : Fin 4096) :
    FloatOps.sitofp (F := Ideal) .f32 (val_main_v6 (F := Ideal) x1 (ix2 (groupOf R (grp k)) (pos k))) = code x1 R k := by
  have hk := k.isLt
  have hR := R.isLt
  unfold val_main_v6 code
  by_cases h : R.val < 5504
  · rw [dif_pos h]
    have hcat := concatenate_pair_apply_left (t := S704512x64) (s₁ := S352256x64) (s₂ := S352256x64)
      (0 : Fin S704512x64.rank) (val_main_v3 (F := Ideal) x1) (val_main_v5 (F := Ideal) x1)
      concatenates_S352256x64_S352256x64_S704512x64_d0 (ix2 (groupOf R (grp k)) (pos k)) rfl
      (ix2 (⟨64 * R.val + k.val / 64, by omega⟩ : Fin 352256) (pos k))
      (by intro b; match b with | ⟨0, _⟩ => rfl | ⟨1, _⟩ => rfl)
    rw [hcat, val_main_v3_apply, val_main_v1_apply, val_main_v0_apply, val_main_c_apply, val_main_v2_apply, val_main_c_0_apply,
      WordFacts.shr4_host]
    rfl
  · rw [dif_neg h]
    have hcat := concatenate_pair_apply_right (t := S704512x64) (s₁ := S352256x64) (s₂ := S352256x64)
      (0 : Fin S704512x64.rank) (val_main_v3 (F := Ideal) x1) (val_main_v5 (F := Ideal) x1)
      concatenates_S352256x64_S352256x64_S704512x64_d0 (ix2 (groupOf R (grp k)) (pos k)) rfl rfl
      (ix2 (⟨64 * (R.val - 5504) + k.val / 64, by omega⟩ : Fin 352256) (pos k))
      (by
        intro b hb
        match b with
        | ⟨0, _⟩ => exact absurd rfl hb
        | ⟨1, _⟩ => rfl)
      (by show 64 * (R.val - 5504) + k.val / 64 + 352256 = 64 * R.val + k.val / 64; omega)
    rw [hcat, val_main_v5_apply, val_main_v4_apply, val_main_c_1_apply]
    rfl

/-- The reference's last stage is `G` of the arguments. -/
theorem ref_eq_G (x0 : FVec Ideal S16x4096 .f32) (x1 : IVec S352256x64 32) (x2 x3 : FVec Ideal S704512x1 .f32)
    (x4 : FVec Ideal S11008 .f32) :
    val_main_v17 (F := Ideal) x0 x1 x2 x3 x4 = G x0 x1 x2 x3 x4 := by
  funext i
  obtain ⟨p, R, rfl⟩ : ∃ (p : Fin 16) (R : Fin 11008), i = ix2 p R := ⟨i 0, i 1, eq_ix2 i⟩
  rw [val_main_v17_apply, val_main_v14_apply, val_main_v16_apply, val_main_v15_apply]
  show _ + _ = entry x0 x1 x2 x3 x4 p R
  unfold entry
  have eb : idx_main_v15 (idx_main_v16 (ix2 p R)) = ix1 R := funext fun a => match a with | ⟨0, _⟩ => rfl
  rw [eb]
  refine congrArg (· + x4 (ix1 R)) (Finset.sum_congr rfl fun k _ => ?_)
  have el : lidx_main_v14 (ix2 p R) k = ix2 p k := funext fun a => match a with | ⟨0, _⟩ => rfl | ⟨1, _⟩ => rfl
  have e12 : idx_main_v12 (idx_main_v13 (ridx_main_v14 (ix2 p R) k)) = ix2 (groupOf R (grp k)) (pos k) :=
    funext fun a => Fin.ext (by
      have hk := k.isLt
      match a with
      | ⟨0, _⟩ => show (R.val * 4096 + k.val) / 64 = 64 * R.val + k.val / 64; omega
      | ⟨1, _⟩ => show (R.val * 4096 + k.val) % 64 = k.val % 64; omega)
  have e8 : idx_main_v8 (ix2 (groupOf R (grp k)) (pos k)) = ix2 (groupOf R (grp k)) (0 : Fin 1) :=
    funext fun a => match a with | ⟨0, _⟩ => rfl | ⟨1, _⟩ => rfl
  have e10 : idx_main_v10 (ix2 (groupOf R (grp k)) (pos k)) = ix2 (groupOf R (grp k)) (0 : Fin 1) :=
    funext fun a => match a with | ⟨0, _⟩ => rfl | ⟨1, _⟩ => rfl
  rw [el, val_main_v13_apply, val_main_v12_apply, e12, val_main_v11_apply, val_main_v9_apply, val_main_v7_apply,
    val_main_v8_apply, val_main_v10_apply, e8, e10, codes_apply]
  rfl

end Cert.ReferenceIdeal.RefValue

end
-- ==== Proof.Prefix.lean ====
import proofs.«430923_j18167711662189_3_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«430923_j18167711662189_3_alg».proof.Proof.Spec
import proofs.«430923_j18167711662189_3_alg».proof.Proof.WordFacts

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx DequantLaw DequantSpec

variable (m : (ℓ : Loc nD τ sig) → Buf (Elt Ideal) ℓ) (c : Dev nD)

/-! ## The argument arrays, at their literal types -/

abbrev xA : FVec Ideal S16x4096 .f32 := m ((c : Thread nD τ).loc main_arg0)
abbrev wA : IVec S352256x64 32 := m ((c : Thread nD τ).loc main_arg1)
abbrev sA : FVec Ideal S704512x1 .f32 := m ((c : Thread nD τ).loc main_arg2)
abbrev zA : FVec Ideal S704512x1 .f32 := m ((c : Thread nD τ).loc main_arg3)
abbrev bA : FVec Ideal S11008 .f32 := m ((c : Thread nD τ).loc main_arg4)

/-! ## What the wrapper hands the kernel, as terms of the arguments -/

theorem words_eq : (V m c main_v0 : S5504x4096.Idx → BitVec 32)
    = shapeCast S5504x4096 (wA m c) shapeCasts_S352256x64_S5504x4096 := by
  dsimp only [V, V0]
  simp only [hostOps0, hostOps0_1, hostOps0_2, List.flatten_cons, List.flatten_nil, List.append_nil, List.cons_append, List.nil_append]
  after_results; rfl

theorem scaleHi_eq : (V m c main_v3 : S5504x64.Idx → EReal)
    = extractStridedSlice S5504x64 ![0, 0] (shapeCast S11008x64 (sA m c) shapeCasts_S704512x1_S11008x64) slices_S11008x64_S5504x64_0_0 := by
  dsimp only [V, V0]
  simp only [hostOps0, hostOps0_1, hostOps0_2, List.flatten_cons, List.flatten_nil, List.append_nil, List.cons_append, List.nil_append]
  after_results; rfl

theorem zeroHi_eq : (V m c main_v4 : S5504x64.Idx → EReal)
    = extractStridedSlice S5504x64 ![0, 0] (shapeCast S11008x64 (zA m c) shapeCasts_S704512x1_S11008x64) slices_S11008x64_S5504x64_0_0 := by
  dsimp only [V, V0]
  simp only [hostOps0, hostOps0_1, hostOps0_2, List.flatten_cons, List.flatten_nil, List.append_nil, List.cons_append, List.nil_append]
  after_results; rfl

theorem scaleLo_eq : (V m c main_v5 : S5504x64.Idx → EReal)
    = extractStridedSlice S5504x64 ![5504, 0] (shapeCast S11008x64 (sA m c) shapeCasts_S704512x1_S11008x64) slices_S11008x64_S5504x64_5504_0 := by
  dsimp only [V, V0]
  simp only [hostOps0, hostOps0_1, hostOps0_2, List.flatten_cons, List.flatten_nil, List.append_nil, List.cons_append, List.nil_append]
  after_results; rfl

theorem zeroLo_eq : (V m c main_v6 : S5504x64.Idx → EReal)
    = extractStridedSlice S5504x64 ![5504, 0] (shapeCast S11008x64 (zA m c) shapeCasts_S704512x1_S11008x64) slices_S11008x64_S5504x64_5504_0 := by
  dsimp only [V, V0]
  simp only [hostOps0, hostOps0_1, hostOps0_2, List.flatten_cons, List.flatten_nil, List.append_nil, List.cons_append, List.nil_append]
  after_results; rfl

theorem biasHi_eq : (V m c main_v8 : S1x5504.Idx → EReal)
    = shapeCast S1x5504 (extractStridedSlice S5504 ![0] (bA m c) slices_S11008_S5504_0) shapeCasts_S5504_S1x5504 := by
  dsimp only [V, V0]
  simp only [hostOps0, hostOps0_1, hostOps0_2, List.flatten_cons, List.flatten_nil, List.append_nil, List.cons_append, List.nil_append]
  after_results; rfl

theorem biasLo_eq : (V m c main_v10 : S1x5504.Idx → EReal)
    = shapeCast S1x5504 (extractStridedSlice S5504 ![5504] (bA m c) slices_S11008_S5504_5504) shapeCasts_S5504_S1x5504 := by
  dsimp only [V, V0]
  simp only [hostOps0, hostOps0_1, hostOps0_2, List.flatten_cons, List.flatten_nil, List.append_nil, List.cons_append, List.nil_append]
  after_results; rfl

theorem groupSums_eq : (V m c main_v12 : S16x64.Idx → EReal)
    = Host.reduceAdd (shapeCast S16x64x64 (xA m c) shapeCasts_S16x4096_S16x64x64) (constant (F := Ideal) S_ .f32 0x00000000#32)
        reducesTo_S16x64x64_S16x64_d2 h_S_ := by
  dsimp only [V, V0]
  simp only [hostOps0, hostOps0_1, hostOps0_2, List.flatten_cons, List.flatten_nil, List.append_nil, List.cons_append, List.nil_append]
  after_results; rfl

set_option maxHeartbeats 1000000 in
/-- The selector the wrapper builds: the row counter compared with the column counter floor-divided by 64 (the quotient,
    less one where the signs differ and the remainder is not zero), as a 0/1 number. -/
theorem selector_eq : (V m c main_v17 : S64x4096.Idx → EReal)
    = uitofp (F := Ideal) .bf16 (cmpi .eq (iotaInDim S64x4096 32 0)
      (select (andi (cmpi .ne (signi (iotaInDim S64x4096 32 1)) (broadcastInDim S64x4096 ![] bcast_S_S64x4096 (signi (constantI S_ 32 64#32))))
          (cmpi .ne (Host.remsi (iotaInDim S64x4096 32 1) (broadcastInDim S64x4096 ![] bcast_S_S64x4096 (constantI S_ 32 64#32))) (broadcastInDim S64x4096 ![] bcast_S_S64x4096 (constantI S_ 32 0#32))))
        (subi (Host.divsi (iotaInDim S64x4096 32 1) (broadcastInDim S64x4096 ![] bcast_S_S64x4096 (constantI S_ 32 64#32))) (broadcastInDim S64x4096 ![] bcast_S_S64x4096 (constantI S_ 32 1#32)))
        (Host.divsi (iotaInDim S64x4096 32 1) (broadcastInDim S64x4096 ![] bcast_S_S64x4096 (constantI S_ 32 64#32))))) := by
  dsimp only [V, V0]
  simp only [hostOps0, hostOps0_1, hostOps0_2, List.flatten_cons, List.flatten_nil, List.append_nil, List.cons_append, List.nil_append]
  after_results; rfl

/-! ## The same, at an index -/

/-- The packed words of output rows `r` and `r + 5504`. -/
theorem words_at (r : Fin 5504) (k : Fin 4096) :
    (V m c main_v0 : S5504x4096.Idx → BitVec 32) (ix2 r k) = word (wA m c) r k := by
  rw [words_eq]
  unfold word
  refine shapeCast_apply _ _ (ix2 r k) _ ?_
  rw [Shape.rowMajor_val_two, Shape.rowMajor_val_two]
  have := k.isLt
  show (64 * r.val + k.val / 64) * 64 + k.val % 64 = r.val * 4096 + k.val
  omega

theorem params_row (a : FVec Ideal S704512x1 .f32) (R : Fin 11008) (g : Fin 64) :
    shapeCast S11008x64 a shapeCasts_S704512x1_S11008x64 (ix2 R g) = param a R g := by
  unfold param
  refine shapeCast_apply _ _ (ix2 R g) _ ?_
  rw [Shape.rowMajor_val_two, Shape.rowMajor_val_two]
  show (64 * R.val + g.val) * 1 + 0 = R.val * 64 + g.val
  omega

/-- A first-half row as a row of the whole. -/
def hiRow (r : Fin 5504) : Fin 11008 := ⟨r.val, by have := r.isLt; omega⟩
/-- A second-half row as a row of the whole. -/
def loRow (r : Fin 5504) : Fin 11008 := ⟨r.val + 5504, by have := r.isLt; omega⟩

theorem scaleHi_at (r : Fin 5504) (g : Fin 64) : (V m c main_v3 : S5504x64.Idx → EReal) (ix2 r g) = param (sA m c) (hiRow r) g := by
  rw [scaleHi_eq, extractStridedSlice_apply _ _ _ (ix2 r g) (ix2 (hiRow r) g)
    (fun a => match a with
      | ⟨0, _⟩ => by show r.val = 0 + r.val; omega
      | ⟨1, _⟩ => by show g.val = 0 + g.val; omega)]
  exact params_row _ _ _

theorem zeroHi_at (r : Fin 5504) (g : Fin 64) : (V m c main_v4 : S5504x64.Idx → EReal) (ix2 r g) = param (zA m c) (hiRow r) g := by
  rw [zeroHi_eq, extractStridedSlice_apply _ _ _ (ix2 r g) (ix2 (hiRow r) g)
    (fun a => match a with
      | ⟨0, _⟩ => by show r.val = 0 + r.val; omega
      | ⟨1, _⟩ => by show g.val = 0 + g.val; omega)]
  exact params_row _ _ _

theorem scaleLo_at (r : Fin 5504) (g : Fin 64) : (V m c main_v5 : S5504x64.Idx → EReal) (ix2 r g) = param (sA m c) (loRow r) g := by
  rw [scaleLo_eq, extractStridedSlice_apply _ _ _ (ix2 r g) (ix2 (loRow r) g)
    (fun a => match a with
      | ⟨0, _⟩ => by show r.val + 5504 = 5504 + r.val; omega
      | ⟨1, _⟩ => by show g.val = 0 + g.val; omega)]
  exact params_row _ _ _

theorem zeroLo_at (r : Fin 5504) (g : Fin 64) : (V m c main_v6 : S5504x64.Idx → EReal) (ix2 r g) = param (zA m c) (loRow r) g := by
  rw [zeroLo_eq, extractStridedSlice_apply _ _ _ (ix2 r g) (ix2 (loRow r) g)
    (fun a => match a with
      | ⟨0, _⟩ => by show r.val + 5504 = 5504 + r.val; omega
      | ⟨1, _⟩ => by show g.val = 0 + g.val; omega)]
  exact params_row _ _ _

theorem biasHi_at (r : Fin 5504) : (V m c main_v8 : S1x5504.Idx → EReal) (ix2 (0 : Fin 1) r) = bA m c (ix1 (hiRow r)) := by
  rw [biasHi_eq, shapeCast_apply _ _ (ix2 (0 : Fin 1) r) (ix1 r) (by
    rw [Shape.rowMajor_val_one, Shape.rowMajor_val_two]; show r.val = 0 * 5504 + r.val; omega)]
  exact extractStridedSlice_apply _ _ _ (ix1 r) (ix1 (hiRow r)) (fun a => match a with
    | ⟨0, _⟩ => by show r.val = 0 + r.val; omega)

theorem biasLo_at (r : Fin 5504) : (V m c main_v10 : S1x5504.Idx → EReal) (ix2 (0 : Fin 1) r) = bA m c (ix1 (loRow r)) := by
  rw [biasLo_eq, shapeCast_apply _ _ (ix2 (0 : Fin 1) r) (ix1 r) (by
    rw [Shape.rowMajor_val_one, Shape.rowMajor_val_two]; show r.val = 0 * 5504 + r.val; omega)]
  exact extractStridedSlice_apply _ _ _ (ix1 r) (ix1 (loRow r)) (fun a => match a with
    | ⟨0, _⟩ => by show r.val + 5504 = 5504 + r.val; omega)

/-- The per-group sums of the activations. -/
theorem groupSums_at (p : Fin 16) (g : Fin 64) :
    (V m c main_v12 : S16x64.Idx → EReal) (ix2 p g) = 0 + ∑ j : Fin 64, xA m c (ix2 p (col g j)) := by
  rw [groupSums_eq]
  simp only [Host.reduceAdd, Ideal.hostReduceAdd_def]
  rw [Ideal.hostReduceAdd_single reducesTo_S16x64x64_S16x64_d2 (by decide)]
  refine congrArg₂ (· + ·) Ideal.ofBits_zero_f32 (Finset.sum_congr rfl fun j _ => ?_)
  refine shapeCast_apply _ _ _ (ix2 p (col g j)) ?_
  rw [Shape.rowMajor_val_two, Shape.rowMajor_val_three]
  show p.val * 4096 + (64 * g.val + j.val) = (p.val * 64 + g.val) * 64 + j.val
  omega

/-- The selector: 1 where group `g` is column `k`'s group, else 0. -/
theorem selector_at (g : Fin 64) (k : Fin 4096) :
    (V m c main_v17 : S64x4096.Idx → EReal) (ix2 g k) = if g = grp k then (1 : EReal) else 0 := by
  rw [selector_eq]
  show (((IntOp.cmpi .eq (BitVec.ofNat 32 g.val) (WordFacts.floorDiv64 (BitVec.ofNat 32 k.val))).toNat : ℝ) : EReal) = _
  rw [WordFacts.floorDiv64_col k]
  have e := WordFacts.eq_bit g (grp k)
  rw [show (grp k).val = k.val / 64 from rfl] at e
  rw [e]
  split <;> simp

end Cert.KernelIdeal.Prefix

end
-- ==== Proof.Products.lean ====
/-
  The kernel's three matrix products, each read at one entry of its result as a plain sum, at the exact values.

  * scale expansion: a [128, 64] block of per-group numbers times the [64, 4096] selector, contracting the group axis:
    entry (q, k) is `∑ g, l (q, g) * r (g, k)`;
  * the main product: the [16, 4096] activations against the [128, 4096] dequantized block, contracting the column axis
    of both (the right operand is used transposed): entry (p, q) is `∑ k, l (p, k) * r (q, k)`;
  * the zero-point correction: the [16, 64] per-group activation sums against a [128, 64] block, contracting the group
    axis of both: entry (p, q) is `∑ g, l (p, g) * r (q, g)`.
  Each starts from a zero accumulator, and the precision a product asks for plays no part at the exact values.
-/
import proofs.«430923_j18167711662189_3_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## Scale expansion: [128, 64] × [64, 4096] -/

theorem expand_lhs_0 (i : S128x4096.Idx) (q : dot_S128x64_S64x4096_S128x4096_1_0_0_1_n_n.contr.Idx) :
    (dot_S128x64_S64x4096_S128x4096_1_0_0_1_n_n.lhsIdx i q 0).val = (i 0).val := by
  unfold DotDims.lhsIdx
  rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
  rfl
theorem expand_lhs_1 (i : S128x4096.Idx) (q : dot_S128x64_S64x4096_S128x4096_1_0_0_1_n_n.contr.Idx) :
    (dot_S128x64_S64x4096_S128x4096_1_0_0_1_n_n.lhsIdx i q 1).val = (q ⟨0, by decide⟩).val :=
  dot_S128x64_S64x4096_S128x4096_1_0_0_1_n_n.lhsIdx_val_of_single rfl i q
theorem expand_rhs_0 (i : S128x4096.Idx) (q : dot_S128x64_S64x4096_S128x4096_1_0_0_1_n_n.contr.Idx) :
    (dot_S128x64_S64x4096_S128x4096_1_0_0_1_n_n.rhsIdx i q 0).val = (q ⟨0, by decide⟩).val :=
  dot_S128x64_S64x4096_S128x4096_1_0_0_1_n_n.rhsIdx_val_of_single rfl i q
theorem expand_rhs_1 (i : S128x4096.Idx) (q : dot_S128x64_S64x4096_S128x4096_1_0_0_1_n_n.contr.Idx) :
    (dot_S128x64_S64x4096_S128x4096_1_0_0_1_n_n.rhsIdx i q 1).val = (i 1).val := by
  unfold DotDims.rhsIdx
  rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
  rfl

/-- Entry (q, k) of the expansion is the sum over groups. -/
theorem expand_apply {φ₁ φ₂ : FTy} (prec : Option ContractPrecision) (l : FVec Ideal S128x64 φ₁) (r : FVec Ideal S64x4096 φ₂)
    (q : Fin 128) (k : Fin 4096) :
    matmul dot_S128x64_S64x4096_S128x4096_1_0_0_1_n_n prec l r (constant S128x4096 .f32 0x00000000#32) (ix2 q k)
      = ∑ g : Fin 64, l (ix2 q g) * r (ix2 g k) := by
  simp only [matmul]
  rw [Ideal.matmul_constant_zero_apply, ← Equiv.sum_comp (contrEquiv1 dot_S128x64_S64x4096_S128x4096_1_0_0_1_n_n 64 rfl rfl).symm]
  refine Finset.sum_congr rfl fun g _ => ?_
  have hg := contrEquiv1_symm_val dot_S128x64_S64x4096_S128x4096_1_0_0_1_n_n 64 rfl rfl g
  have el : dot_S128x64_S64x4096_S128x4096_1_0_0_1_n_n.lhsIdx (ix2 q k) ((contrEquiv1 dot_S128x64_S64x4096_S128x4096_1_0_0_1_n_n 64 rfl rfl).symm g) = ix2 q g := funext fun a => Fin.ext (by
    match a with
    | ⟨0, _⟩ => exact expand_lhs_0 _ _
    | ⟨1, _⟩ => exact (expand_lhs_1 _ _).trans hg)
  have er : dot_S128x64_S64x4096_S128x4096_1_0_0_1_n_n.rhsIdx (ix2 q k) ((contrEquiv1 dot_S128x64_S64x4096_S128x4096_1_0_0_1_n_n 64 rfl rfl).symm g) = ix2 g k := funext fun a => Fin.ext (by
    match a with
    | ⟨0, _⟩ => exact (expand_rhs_0 _ _).trans hg
    | ⟨1, _⟩ => exact expand_rhs_1 _ _)
  rw [el, er]

/-! ## The main product: [16, 4096] × [128, 4096], both contracted on the column axis -/

theorem main_lhs_0 (i : S16x128.Idx) (q : dot_S16x4096_S128x4096_S16x128_1_1_0_0_n_n.contr.Idx) :
    (dot_S16x4096_S128x4096_S16x128_1_1_0_0_n_n.lhsIdx i q 0).val = (i 0).val := by
  unfold DotDims.lhsIdx
  rw [dif_neg (show ¬(0 : Fin S16x4096.rank) ∈ dot_S16x4096_S128x4096_S16x128_1_1_0_0_n_n.lhsBatch by decide), dif_pos (show (0 : Fin S16x4096.rank) ∈ dot_S16x4096_S128x4096_S16x128_1_1_0_0_n_n.lhsNonContracting by decide)]
  rfl
theorem main_lhs_1 (i : S16x128.Idx) (q : dot_S16x4096_S128x4096_S16x128_1_1_0_0_n_n.contr.Idx) :
    (dot_S16x4096_S128x4096_S16x128_1_1_0_0_n_n.lhsIdx i q 1).val = (q ⟨0, by decide⟩).val :=
  dot_S16x4096_S128x4096_S16x128_1_1_0_0_n_n.lhsIdx_val_of_single rfl i q
theorem main_rhs_0 (i : S16x128.Idx) (q : dot_S16x4096_S128x4096_S16x128_1_1_0_0_n_n.contr.Idx) :
    (dot_S16x4096_S128x4096_S16x128_1_1_0_0_n_n.rhsIdx i q 0).val = (i 1).val := by
  unfold DotDims.rhsIdx
  rw [dif_neg (show ¬(0 : Fin S128x4096.rank) ∈ dot_S16x4096_S128x4096_S16x128_1_1_0_0_n_n.rhsBatch by decide), dif_pos (show (0 : Fin S128x4096.rank) ∈ dot_S16x4096_S128x4096_S16x128_1_1_0_0_n_n.rhsNonContracting by decide)]
  rfl
theorem main_rhs_1 (i : S16x128.Idx) (q : dot_S16x4096_S128x4096_S16x128_1_1_0_0_n_n.contr.Idx) :
    (dot_S16x4096_S128x4096_S16x128_1_1_0_0_n_n.rhsIdx i q 1).val = (q ⟨0, by decide⟩).val :=
  dot_S16x4096_S128x4096_S16x128_1_1_0_0_n_n.rhsIdx_val_of_single rfl i q

/-- Entry (p, q) of the main product is the sum over columns. -/
theorem main_apply {φ₁ φ₂ : FTy} (prec : Option ContractPrecision) (l : FVec Ideal S16x4096 φ₁) (r : FVec Ideal S128x4096 φ₂)
    (p : Fin 16) (q : Fin 128) :
    matmul dot_S16x4096_S128x4096_S16x128_1_1_0_0_n_n prec l r (constant S16x128 .f32 0x00000000#32) (ix2 p q)
      = ∑ k : Fin 4096, l (ix2 p k) * r (ix2 q k) := by
  simp only [matmul]
  rw [Ideal.matmul_constant_zero_apply, ← Equiv.sum_comp (contrEquiv1 dot_S16x4096_S128x4096_S16x128_1_1_0_0_n_n 4096 rfl rfl).symm]
  refine Finset.sum_congr rfl fun k _ => ?_
  have hk := contrEquiv1_symm_val dot_S16x4096_S128x4096_S16x128_1_1_0_0_n_n 4096 rfl rfl k
  have el : dot_S16x4096_S128x4096_S16x128_1_1_0_0_n_n.lhsIdx (ix2 p q) ((contrEquiv1 dot_S16x4096_S128x4096_S16x128_1_1_0_0_n_n 4096 rfl rfl).symm k) = ix2 p k := funext fun a => Fin.ext (by
    match a with
    | ⟨0, _⟩ => exact main_lhs_0 _ _
    | ⟨1, _⟩ => exact (main_lhs_1 _ _).trans hk)
  have er : dot_S16x4096_S128x4096_S16x128_1_1_0_0_n_n.rhsIdx (ix2 p q) ((contrEquiv1 dot_S16x4096_S128x4096_S16x128_1_1_0_0_n_n 4096 rfl rfl).symm k) = ix2 q k := funext fun a => Fin.ext (by
    match a with
    | ⟨0, _⟩ => exact main_rhs_0 _ _
    | ⟨1, _⟩ => exact (main_rhs_1 _ _).trans hk)
  rw [el, er]

/-! ## The zero-point correction: [16, 64] × [128, 64], both contracted on the group axis -/

theorem corr_lhs_0 (i : S16x128.Idx) (q : dot_S16x64_S128x64_S16x128_1_1_0_0_n_n.contr.Idx) :
    (dot_S16x64_S128x64_S16x128_1_1_0_0_n_n.lhsIdx i q 0).val = (i 0).val := by
  unfold DotDims.lhsIdx
  rw [dif_neg (show ¬(0 : Fin S16x64.rank) ∈ dot_S16x64_S128x64_S16x128_1_1_0_0_n_n.lhsBatch by decide), dif_pos (show (0 : Fin S16x64.rank) ∈ dot_S16x64_S128x64_S16x128_1_1_0_0_n_n.lhsNonContracting by decide)]
  rfl
theorem corr_lhs_1 (i : S16x128.Idx) (q : dot_S16x64_S128x64_S16x128_1_1_0_0_n_n.contr.Idx) :
    (dot_S16x64_S128x64_S16x128_1_1_0_0_n_n.lhsIdx i q 1).val = (q ⟨0, by decide⟩).val :=
  dot_S16x64_S128x64_S16x128_1_1_0_0_n_n.lhsIdx_val_of_single rfl i q
theorem corr_rhs_0 (i : S16x128.Idx) (q : dot_S16x64_S128x64_S16x128_1_1_0_0_n_n.contr.Idx) :
    (dot_S16x64_S128x64_S16x128_1_1_0_0_n_n.rhsIdx i q 0).val = (i 1).val := by
  unfold DotDims.rhsIdx
  rw [dif_neg (show ¬(0 : Fin S128x64.rank) ∈ dot_S16x64_S128x64_S16x128_1_1_0_0_n_n.rhsBatch by decide), dif_pos (show (0 : Fin S128x64.rank) ∈ dot_S16x64_S128x64_S16x128_1_1_0_0_n_n.rhsNonContracting by decide)]
  rfl
theorem corr_rhs_1 (i : S16x128.Idx) (q : dot_S16x64_S128x64_S16x128_1_1_0_0_n_n.contr.Idx) :
    (dot_S16x64_S128x64_S16x128_1_1_0_0_n_n.rhsIdx i q 1).val = (q ⟨0, by decide⟩).val :=
  dot_S16x64_S128x64_S16x128_1_1_0_0_n_n.rhsIdx_val_of_single rfl i q

/-- Entry (p, q) of the correction is the sum over groups. -/
theorem corr_apply {φ₁ φ₂ : FTy} (prec : Option ContractPrecision) (l : FVec Ideal S16x64 φ₁) (r : FVec Ideal S128x64 φ₂)
    (p : Fin 16) (q : Fin 128) :
    matmul dot_S16x64_S128x64_S16x128_1_1_0_0_n_n prec l r (constant S16x128 .f32 0x00000000#32) (ix2 p q)
      = ∑ g : Fin 64, l (ix2 p g) * r (ix2 q g) := by
  simp only [matmul]
  rw [Ideal.matmul_constant_zero_apply, ← Equiv.sum_comp (contrEquiv1 dot_S16x64_S128x64_S16x128_1_1_0_0_n_n 64 rfl rfl).symm]
  refine Finset.sum_congr rfl fun g _ => ?_
  have hg := contrEquiv1_symm_val dot_S16x64_S128x64_S16x128_1_1_0_0_n_n 64 rfl rfl g
  have el : dot_S16x64_S128x64_S16x128_1_1_0_0_n_n.lhsIdx (ix2 p q) ((contrEquiv1 dot_S16x64_S128x64_S16x128_1_1_0_0_n_n 64 rfl rfl).symm g) = ix2 p g := funext fun a => Fin.ext (by
    match a with
    | ⟨0, _⟩ => exact corr_lhs_0 _ _
    | ⟨1, _⟩ => exact (corr_lhs_1 _ _).trans hg)
  have er : dot_S16x64_S128x64_S16x128_1_1_0_0_n_n.rhsIdx (ix2 p q) ((contrEquiv1 dot_S16x64_S128x64_S16x128_1_1_0_0_n_n 64 rfl rfl).symm g) = ix2 q g := funext fun a => Fin.ext (by
    match a with
    | ⟨0, _⟩ => exact corr_rhs_0 _ _
    | ⟨1, _⟩ => exact (corr_rhs_1 _ _).trans hg)
  rw [el, er]

end Cert.KernelIdeal.Products

end
-- ==== Proof.Body.lean ====
/-
  What the kernel body stores, at one entry.

  The body handles 128 output rows of each half at a time. For row `q` of the block and token `p`, the value stored
  for the first half is
      `∑ k, x (p, k) * (hi (q, k) * (∑ g, s (q, g) * e (g, k) + ∑ g, (s (q, g) - s (q, g)) * e (g, k)))`
      `- ∑ g, xsum (p, g) * (z (q, g) * s (q, g)) + bias (0, q)`
  where `hi` is the high four bits of the packed word, `s`, `z`, `bias` are the first half's blocks, `e` is the
  selector and `xsum` the per-group activation sums; the second half's is the same with the low four bits (the body
  shifts by zero places) and the second half's blocks. The changes of float format are the identity at the exact values.
-/
import proofs.«430923_j18167711662189_3_alg».proof.Proof.Gen.KernelIdeal.Skeleton
import proofs.«430923_j18167711662189_3_alg».proof.Proof.Products
import proofs.«430923_j18167711662189_3_alg».proof.Proof.Spec
import proofs.«430923_j18167711662189_3_alg».proof.Proof.WordFacts
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.KernelIdeal.Products
open Idealize.ShloMosaic Idealize.ShloMosaic.ValueIdx DequantSpec

/-- The bias row broadcast over the 16 tokens. -/
theorem biasRow_apply (v : FVec Ideal S1x128 .f32) (p : Fin 16) (q : Fin 128) :
    broadcastTo S16x128 v broadcasts_S1x128_S16x128 (ix2 p q) = v (ix2 (0 : Fin 1) q) :=
  broadcastTo_apply v broadcasts_S1x128_S16x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first half's stored value at entry (p, q). -/
theorem hi_apply (v0 : Vec Ideal S128x4096 .i32) (v2 : Vec Ideal S16x4096 .f32) (v4 : Vec Ideal S16x64 .f32)
    (v6 : Vec Ideal S64x4096 .bf16) (v8 v10 : Vec Ideal S128x64 .f32) (v12 : Vec Ideal S1x128 .f32) (p : Fin 16) (q : Fin 128) :
    k0_pay6 v0 v2 v4 v6 v8 v10 v12 (ix2 p q)
      = (∑ k : Fin 4096, v2 (ix2 p k) * (hiCode (v0 (ix2 q k)) * ((∑ g : Fin 64, v8 (ix2 q g) * v6 (ix2 g k))
            + ∑ g : Fin 64, (v8 (ix2 q g) - v8 (ix2 q g)) * v6 (ix2 g k))))
        - (∑ g : Fin 64, v4 (ix2 p g) * (v10 (ix2 q g) * v8 (ix2 q g))) + v12 (ix2 (0 : Fin 1) q) := by
  unfold k0_pay6 k0_pay2 k0_pay3 k0_pay4 k0_pay5
  simp only [shapeCast_self]
  rw [addf_apply, subf_apply, main_apply, corr_apply, biasRow_apply]
  refine congrArg₂ (· + ·) (congrArg₂ (· - ·) (Finset.sum_congr rfl fun k _ => ?_) (Finset.sum_congr rfl fun g _ => ?_)) rfl
  · rw [truncf_apply, truncf_apply, mulf_apply, addf_apply, expand_apply, expand_apply]
    rfl
  · rfl

/-- The second half's stored value at entry (p, q). -/
theorem lo_apply (v1 : IVec S128x4096 32) (v3 : FVec Ideal S16x4096 .bf16) (v5 : FVec Ideal S16x64 .f32)
    (v7 : FVec Ideal S64x4096 .bf16) (v35 v37 : Vec Ideal S128x64 .f32) (v39 : Vec Ideal S1x128 .f32) (p : Fin 16) (q : Fin 128) :
    k0_pay1 v1 v3 v5 v7 v35 v37 v39 (ix2 p q)
      = (∑ k : Fin 4096, v3 (ix2 p k) * (loCode (v1 (ix2 q k)) * ((∑ g : Fin 64, v35 (ix2 q g) * v7 (ix2 g k))
            + ∑ g : Fin 64, (v35 (ix2 q g) - v35 (ix2 q g)) * v7 (ix2 g k))))
        - (∑ g : Fin 64, v5 (ix2 p g) * (v37 (ix2 q g) * v35 (ix2 q g))) + v39 (ix2 (0 : Fin 1) q) := by
  unfold k0_pay1
  simp only [shapeCast_self]
  rw [addf_apply, subf_apply, main_apply, corr_apply, biasRow_apply]
  refine congrArg₂ (· + ·) (congrArg₂ (· - ·) (Finset.sum_congr rfl fun k _ => ?_) (Finset.sum_congr rfl fun g _ => ?_)) rfl
  · rw [truncf_apply, mulf_apply, addf_apply, expand_apply, expand_apply]
    show v3 (ix2 p k) * ((((IntOp.andi (IntOp.shrsi .vector (v1 (ix2 q k)) 0#32) 15#32).toInt : ℝ) : EReal) * _) = _
    rw [WordFacts.shr0]
    rfl
  · rfl

/-- The loaded blocks as the second half's payload takes them (a cast to the same shape; a change of float format). -/
theorem pay2_eq (v : Vec Ideal S128x4096 .i32) : k0_pay2 v = v := by unfold k0_pay2; exact shapeCast_self _ _
theorem pay3_apply (v : Vec Ideal S16x4096 .f32) (i : S16x4096.Idx) : k0_pay3 v i = v i := rfl
theorem pay4_eq (v : Vec Ideal S16x64 .f32) : k0_pay4 v = v := by unfold k0_pay4; exact shapeCast_self _ _
theorem pay5_eq (v : Vec Ideal S64x4096 .bf16) : k0_pay5 v = v := by unfold k0_pay5; exact shapeCast_self _ _

end Cert.KernelIdeal.Body

end
-- ==== Proof.Blocks.lean ====
/-
  From blocks to arrays.

  The grid has 43 points; point `t` handles rows `128 t … 128 t + 127` of each half. The activations, their per-group
  sums and the selector are staged whole at every point; the packed words, the scales and the zero points by blocks of
  128 rows; the biases and the two results by blocks of 128 columns of a one-row, respectively 16-row, array. So entry
  (p, q) of what point `t` writes back is the kernel's expression for token `p` and output row `128 t + q` of the first
  half (window 10), or row `128 t + q + 5504` (window 11), which under finiteness is the specification's entry; the 43
  blocks tile each result array.
-/
import proofs.«430923_j18167711662189_3_alg».proof.Proof.Gen.KernelIdeal.Frame
import proofs.«430923_j18167711662189_3_alg».proof.Proof.Prefix
import proofs.«430923_j18167711662189_3_alg».proof.Proof.Body

set_option maxRecDepth 16384

noncomputable section

namespace Cert.KernelIdeal.Blocks

open Cert.KernelIdeal Cert.KernelIdeal.Gen Cert.KernelIdeal.Prefix Cert.KernelIdeal.Body
open Idealize.ShloMosaic Idealize.ShloMosaic.TcCoe Idealize.SL.Sem Idealize.ShloMosaic.ValueIdx DequantLaw DequantSpec
open Idealize.ShloMosaic.Pipeline (Dat)

variable (m : (ℓ : Loc nD τ sig) → Buf (Elt Ideal) ℓ) (c : Dev nD)

/-- The activations, the scales and the zero points hold real numbers. -/
def Reals : Prop :=
  (∀ i, ∃ r : ℝ, xA m c i = (r : EReal)) ∧ (∀ i, ∃ r : ℝ, sA m c i = (r : EReal)) ∧ (∀ i, ∃ r : ℝ, zA m c i = (r : EReal))

theorem hz : (![0, 0] : Fin 2 → Nat) = fun _ => 0 := funext fun a => by fin_cases a <;> rfl

/-- The printed index maps over the grid: whole-array windows stay at block (0, 0); row-blocked windows are at row block
    `t`; column-blocked windows at column block `t`. -/
theorem idx_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = t.val)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = t.val)
    ∧ (win0_11.index t (0 : Fin 2) = 0 ∧ win0_11.index t (1 : Fin 2) = t.val) :=
  (by decide +kernel : ∀ t : Fin grid0.N, _)

theorem t_lt (t : Fin cfg0.N) : t.val < 43 := by
  have h : t.val < cfg0.N := t.isLt
  have e : cfg0.N = 43 := N_0
  omega

/-- Row `q` of point `t`'s block, as a row of a half. -/
def rowAt (t : Fin cfg0.N) (q : Fin 128) : Fin 5504 := ⟨128 * t.val + q.val, by have := t_lt t; have := q.isLt; omega⟩

/-! ## The staged blocks, at their literal types -/

abbrev xblk (t : Fin cfg0.N) : Vec Ideal S16x4096 .f32 := iblk m c 0 t
abbrev wblk (t : Fin cfg0.N) : Vec Ideal S128x4096 .i32 := iblk m c 1 t
abbrev shblk (t : Fin cfg0.N) : Vec Ideal S128x64 .f32 := iblk m c 2 t
abbrev zhblk (t : Fin cfg0.N) : Vec Ideal S128x64 .f32 := iblk m c 3 t
abbrev bhblk (t : Fin cfg0.N) : Vec Ideal S1x128 .f32 := iblk m c 4 t
abbrev slblk (t : Fin cfg0.N) : Vec Ideal S128x64 .f32 := iblk m c 5 t
abbrev zlblk (t : Fin cfg0.N) : Vec Ideal S128x64 .f32 := iblk m c 6 t
abbrev blblk (t : Fin cfg0.N) : Vec Ideal S1x128 .f32 := iblk m c 7 t
abbrev gblk (t : Fin cfg0.N) : Vec Ideal S16x64 .f32 := iblk m c 8 t
abbrev eblk (t : Fin cfg0.N) : Vec Ideal S64x4096 .bf16 := iblk m c 9 t

/-! ## Each block's entries, located in the arrays -/

theorem xblk_at (t : Fin cfg0.N) (p : Fin 16) (k : Fin 4096) : xblk m c t (ix2 p k) = xA m c (ix2 p k) := by
  obtain ⟨⟨e0, e1⟩, -⟩ := idx_facts t
  show V m c main_arg0 (((cfg0.win 0).blk t).view.emb (ix2 p k)) = _
  rw [V_main_arg0]
  refine congrArg (xA m c) (funext fun a => Fin.ext ?_)
  match a with
  | ⟨0, _⟩ => show win0_0.index t (0 : Fin 2) * 16 + 1 * p.val = p.val; omega
  | ⟨1, _⟩ => show win0_0.index t (1 : Fin 2) * 4096 + 1 * k.val = k.val; omega

theorem wblk_at (t : Fin cfg0.N) (q : Fin 128) (k : Fin 4096) : wblk m c t (ix2 q k) = word (wA m c) (rowAt t q) k := by
  obtain ⟨-, ⟨e0, e1⟩, -⟩ := idx_facts t
  rw [← words_at m c (rowAt t q) k]
  show (V m c main_v0 : S5504x4096.Idx → BitVec 32) (((cfg0.win 1).blk t).view.emb (ix2 q k)) = _
  refine congrArg (V m c main_v0 : S5504x4096.Idx → BitVec 32) (funext fun a => Fin.ext ?_)
  match a with
  | ⟨0, _⟩ => show win0_1.index t (0 : Fin 2) * 128 + 1 * q.val = 128 * t.val + q.val; omega
  | ⟨1, _⟩ => show win0_1.index t (1 : Fin 2) * 4096 + 1 * k.val = k.val; omega

theorem shblk_at (t : Fin cfg0.N) (q : Fin 128) (g : Fin 64) : shblk m c t (ix2 q g) = param (sA m c) (hiRow (rowAt t q)) g := by
  obtain ⟨-, -, ⟨e0, e1⟩, -⟩ := idx_facts t
  rw [← scaleHi_at m c (rowAt t q) g]
  show (V m c main_v3 : S5504x64.Idx → EReal) (((cfg0.win 2).blk t).view.emb (ix2 q g)) = _
  refine congrArg (V m c main_v3 : S5504x64.Idx → EReal) (funext fun a => Fin.ext ?_)
  match a with
  | ⟨0, _⟩ => show win0_2.index t (0 : Fin 2) * 128 + 1 * q.val = 128 * t.val + q.val; omega
  | ⟨1, _⟩ => show win0_2.index t (1 : Fin 2) * 64 + 1 * g.val = g.val; omega

theorem zhblk_at (t : Fin cfg0.N) (q : Fin 128) (g : Fin 64) : zhblk m c t (ix2 q g) = param (zA m c) (hiRow (rowAt t q)) g := by
  obtain ⟨-, -, -, ⟨e0, e1⟩, -⟩ := idx_facts t
  rw [← zeroHi_at m c (rowAt t q) g]
  show (V m c main_v4 : S5504x64.Idx → EReal) (((cfg0.win 3).blk t).view.emb (ix2 q g)) = _
  refine congrArg (V m c main_v4 : S5504x64.Idx → EReal) (funext fun a => Fin.ext ?_)
  match a with
  | ⟨0, _⟩ => show win0_3.index t (0 : Fin 2) * 128 + 1 * q.val = 128 * t.val + q.val; omega
  | ⟨1, _⟩ => show win0_3.index t (1 : Fin 2) * 64 + 1 * g.val = g.val; omega

theorem bhblk_at (t : Fin cfg0.N) (q : Fin 128) : bhblk m c t (ix2 (0 : Fin 1) q) = bA m c (ix1 (hiRow (rowAt t q))) := by
  obtain ⟨-, -, -, -, ⟨e0, e1⟩, -⟩ := idx_facts t
  rw [← biasHi_at m c (rowAt t q)]
  show (V m c main_v8 : S1x5504.Idx → EReal) (((cfg0.win 4).blk t).view.emb (ix2 (0 : Fin 1) q)) = _
  refine congrArg (V m c main_v8 : S1x5504.Idx → EReal) (funext fun a => Fin.ext ?_)
  match a with
  | ⟨0, _⟩ => show win0_4.index t (0 : Fin 2) * 1 + 1 * 0 = 0; omega
  | ⟨1, _⟩ => show win0_4.index t (1 : Fin 2) * 128 + 1 * q.val = 128 * t.val + q.val; omega

theorem slblk_at (t : Fin cfg0.N) (q : Fin 128) (g : Fin 64) : slblk m c t (ix2 q g) = param (sA m c) (loRow (rowAt t q)) g := by
  obtain ⟨-, -, -, -, -, ⟨e0, e1⟩, -⟩ := idx_facts t
  rw [← scaleLo_at m c (rowAt t q) g]
  show (V m c main_v5 : S5504x64.Idx → EReal) (((cfg0.win 5).blk t).view.emb (ix2 q g)) = _
  refine congrArg (V m c main_v5 : S5504x64.Idx → EReal) (funext fun a => Fin.ext ?_)
  match a with
  | ⟨0, _⟩ => show win0_5.index t (0 : Fin 2) * 128 + 1 * q.val = 128 * t.val + q.val; omega
  | ⟨1, _⟩ => show win0_5.index t (1 : Fin 2) * 64 + 1 * g.val = g.val; omega

theorem zlblk_at (t : Fin cfg0.N) (q : Fin 128) (g : Fin 64) : zlblk m c t (ix2 q g) = param (zA m c) (loRow (rowAt t q)) g := by
  obtain ⟨-, -, -, -, -, -, ⟨e0, e1⟩, -⟩ := idx_facts t
  rw [← zeroLo_at m c (rowAt t q) g]
  show (V m c main_v6 : S5504x64.Idx → EReal) (((cfg0.win 6).blk t).view.emb (ix2 q g)) = _
  refine congrArg (V m c main_v6 : S5504x64.Idx → EReal) (funext fun a => Fin.ext ?_)
  match a with
  | ⟨0, _⟩ => show win0_6.index t (0 : Fin 2) * 128 + 1 * q.val = 128 * t.val + q.val; omega
  | ⟨1, _⟩ => show win0_6.index t (1 : Fin 2) * 64 + 1 * g.val = g.val; omega

theorem blblk_at (t : Fin cfg0.N) (q : Fin 128) : blblk m c t (ix2 (0 : Fin 1) q) = bA m c (ix1 (loRow (rowAt t q))) := by
  obtain ⟨-, -, -, -, -, -, -, ⟨e0, e1⟩, -⟩ := idx_facts t
  rw [← biasLo_at m c (rowAt t q)]
  show (V m c main_v10 : S1x5504.Idx → EReal) (((cfg0.win 7).blk t).view.emb (ix2 (0 : Fin 1) q)) = _
  refine congrArg (V m c main_v10 : S1x5504.Idx → EReal) (funext fun a => Fin.ext ?_)
  match a with
  | ⟨0, _⟩ => show win0_7.index t (0 : Fin 2) * 1 + 1 * 0 = 0; omega
  | ⟨1, _⟩ => show win0_7.index t (1 : Fin 2) * 128 + 1 * q.val = 128 * t.val + q.val; omega

theorem gblk_at (t : Fin cfg0.N) (p : Fin 16) (g : Fin 64) : gblk m c t (ix2 p g) = 0 + ∑ j : Fin 64, xA m c (ix2 p (col g j)) := by
  obtain ⟨-, -, -, -, -, -, -, -, ⟨e0, e1⟩, -⟩ := idx_facts t
  rw [← groupSums_at m c p g]
  show (V m c main_v12 : S16x64.Idx → EReal) (((cfg0.win 8).blk t).view.emb (ix2 p g)) = _
  refine congrArg (V m c main_v12 : S16x64.Idx → EReal) (funext fun a => Fin.ext ?_)
  match a with
  | ⟨0, _⟩ => show win0_8.index t (0 : Fin 2) * 16 + 1 * p.val = p.val; omega
  | ⟨1, _⟩ => show win0_8.index t (1 : Fin 2) * 64 + 1 * g.val = g.val; omega

theorem eblk_at (t : Fin cfg0.N) (g : Fin 64) (k : Fin 4096) : eblk m c t (ix2 g k) = if g = grp k then (1 : EReal) else 0 := by
  obtain ⟨-, -, -, -, -, -, -, -, -, ⟨e0, e1⟩, -⟩ := idx_facts t
  rw [← selector_at m c g k]
  show (V m c main_v17 : S64x4096.Idx → EReal) (((cfg0.win 9).blk t).view.emb (ix2 g k)) = _
  refine congrArg (V m c main_v17 : S64x4096.Idx → EReal) (funext fun a => Fin.ext ?_)
  match a with
  | ⟨0, _⟩ => show win0_9.index t (0 : Fin 2) * 64 + 1 * g.val = g.val; omega
  | ⟨1, _⟩ => show win0_9.index t (1 : Fin 2) * 4096 + 1 * k.val = k.val; omega

/-! ## The two result arrays -/

theorem code_hi (w : SW.Idx → BitVec 32) (r : Fin 5504) (k : Fin 4096) : code w (hiRow r) k = hiCode (word w r k) := by
  unfold code
  rw [dif_pos (show (hiRow r).val < 5504 from r.isLt)]
  rfl

theorem code_lo (w : SW.Idx → BitVec 32) (r : Fin 5504) (k : Fin 4096) : code w (loRow r) k = loCode (word w r k) := by
  unfold code
  rw [dif_neg (show ¬(loRow r).val < 5504 from by show ¬(r.val + 5504 < 5504); omega)]
  exact congrArg (fun r' => loCode (word w r' k)) (Fin.ext (by show r.val + 5504 - 5504 = r.val; omega))

/-- The first half of the result: rows 0 … 5503. -/
def Ghi : S16x5504.Idx → EReal := fun i =>
  entry (xA m c) (wA m c) (sA m c) (zA m c) (bA m c) ⟨(i 0).val, (i 0).isLt⟩ (hiRow ⟨(i 1).val, (i 1).isLt⟩)

/-- The second half: rows 5504 … 11007. -/
def Glo : S16x5504.Idx → EReal := fun i =>
  entry (xA m c) (wA m c) (sA m c) (zA m c) (bA m c) ⟨(i 0).val, (i 0).isLt⟩ (loRow ⟨(i 1).val, (i 1).isLt⟩)

/-- What point `t` writes back to the first result array is block `t` of `Ghi`. -/
theorem flushed_hi (hR : Reals m c) (t : Fin cfg0.N) :
    (dats m 0 c).flushed 10 t = ((cfg0.win 10).blk t).view.read (Elt Ideal) (Ghi m c) := by
  obtain ⟨-, -, -, -, -, -, -, -, -, -, ⟨e0, e1⟩, -⟩ := idx_facts t
  show (cfg0.win 10).cut (grid0.coords t) ((dats m 0 c).after 10 t) = _
  rw [after0_10]
  unfold out0_10
  rw [View.canon_unit_zero hz]
  simp only [View.ld_unit_zero (S := S128x4096) hz, View.ld_unit_zero (S := S16x4096) hz, View.ld_unit_zero (S := S16x64) hz,
    View.ld_unit_zero (S := S64x4096) hz, View.ld_unit_zero (S := S128x64) hz, View.ld_unit_zero (S := S1x128) hz]
  funext j
  obtain ⟨p, q, rfl⟩ : ∃ (p : Fin 16) (q : Fin 128), j = ix2 p q := ⟨j 0, j 1, eq_ix2 j⟩
  show k0_pay6 (wblk m c t) (xblk m c t) (gblk m c t) (eblk m c t) (shblk m c t) (zhblk m c t) (bhblk m c t) (ix2 p q)
    = Ghi m c (((cfg0.win 10).blk t).view.emb (ix2 p q))
  refine (hi_apply (wblk m c t) (xblk m c t) (gblk m c t) (eblk m c t) (shblk m c t) (zhblk m c t) (bhblk m c t) p q).trans ?_
  have hG : Ghi m c (((cfg0.win 10).blk t).view.emb (ix2 p q))
      = entry (xA m c) (wA m c) (sA m c) (zA m c) (bA m c) p (hiRow (rowAt t q)) := by
    unfold Ghi
    refine congrArg₂ (entry (xA m c) (wA m c) (sA m c) (zA m c) (bA m c)) (Fin.ext ?_) (congrArg hiRow (Fin.ext ?_))
    · show win0_10.index t (0 : Fin 2) * 16 + 1 * p.val = p.val; omega
    · show win0_10.index t (1 : Fin 2) * 128 + 1 * q.val = 128 * t.val + q.val; omega
  rw [hG, ← kernel_entry (xA m c) (wA m c) (sA m c) (zA m c) (bA m c) hR.1 hR.2.1 hR.2.2
    (fun g k => if g = grp k then (1 : EReal) else 0) (fun _ _ => rfl) p (hiRow (rowAt t q))]
  simp only [xblk_at, wblk_at, shblk_at, zhblk_at, bhblk_at, gblk_at, eblk_at, code_hi]

/-- What point `t` writes back to the second result array is block `t` of `Glo`. -/
theorem flushed_lo (hR : Reals m c) (t : Fin cfg0.N) :
    (dats m 0 c).flushed 11 t = ((cfg0.win 11).blk t).view.read (Elt Ideal) (Glo m c) := by
  obtain ⟨-, -, -, -, -, -, -, -, -, -, -, ⟨e0, e1⟩⟩ := idx_facts t
  show (cfg0.win 11).cut (grid0.coords t) ((dats m 0 c).after 11 t) = _
  rw [after0_11]
  unfold out0_11
  rw [View.canon_unit_zero hz]
  simp only [View.ld_unit_zero (S := S128x4096) hz, View.ld_unit_zero (S := S16x4096) hz, View.ld_unit_zero (S := S16x64) hz,
    View.ld_unit_zero (S := S64x4096) hz, View.ld_unit_zero (S := S128x64) hz, View.ld_unit_zero (S := S1x128) hz]
  funext j
  obtain ⟨p, q, rfl⟩ : ∃ (p : Fin 16) (q : Fin 128), j = ix2 p q := ⟨j 0, j 1, eq_ix2 j⟩
  show k0_pay1 (k0_pay2 (wblk m c t)) (k0_pay3 (xblk m c t)) (k0_pay4 (gblk m c t)) (k0_pay5 (eblk m c t)) (slblk m c t) (zlblk m c t) (blblk m c t) (ix2 p q)
    = Glo m c (((cfg0.win 11).blk t).view.emb (ix2 p q))
  rw [pay2_eq, pay4_eq, pay5_eq]
  refine (lo_apply (wblk m c t) (k0_pay3 (xblk m c t)) (gblk m c t) (eblk m c t) (slblk m c t) (zlblk m c t) (blblk m c t) p q).trans ?_
  have hG : Glo m c (((cfg0.win 11).blk t).view.emb (ix2 p q))
      = entry (xA m c) (wA m c) (sA m c) (zA m c) (bA m c) p (loRow (rowAt t q)) := by
    unfold Glo
    refine congrArg₂ (entry (xA m c) (wA m c) (sA m c) (zA m c) (bA m c)) (Fin.ext ?_) (congrArg loRow (Fin.ext ?_))
    · show win0_11.index t (0 : Fin 2) * 16 + 1 * p.val = p.val; omega
    · show win0_11.index t (1 : Fin 2) * 128 + 1 * q.val = 128 * t.val + q.val; omega
  rw [hG, ← kernel_entry (xA m c) (wA m c) (sA m c) (zA m c) (bA m c) hR.1 hR.2.1 hR.2.2
    (fun g k => if g = grp k then (1 : EReal) else 0) (fun _ _ => rfl) p (loRow (rowAt t q))]
  simp only [pay3_apply, xblk_at, wblk_at, slblk_at, zlblk_at, blblk_at, gblk_at, eblk_at, code_lo]

/-- An index of a result array is in point `t`'s block iff each coordinate is in the block's range on its axis. -/
theorem mem_blk_hi (t : Fin cfg0.N) (i : S16x5504.Idx) :
    i ∈ ((cfg0.win 10).blk t).view.set ↔ ∀ a : Fin 2, win0_10.index t a * S16x128.size a ≤ (i a).val ∧ (i a).val < win0_10.index t a * S16x128.size a + S16x128.size a := by
  show i ∈ ((View.whole main_v18_0).slice (win0_10.rect t)).set ↔ _
  rw [View.set_slice_whole, Rect.mem_set_unit]
  exact Iff.rfl

theorem mem_blk_lo (t : Fin cfg0.N) (i : S16x5504.Idx) :
    i ∈ ((cfg0.win 11).blk t).view.set ↔ ∀ a : Fin 2, win0_11.index t a * S16x128.size a ≤ (i a).val ∧ (i a).val < win0_11.index t a * S16x128.size a + S16x128.size a := by
  show i ∈ ((View.whole main_v18_1).slice (win0_11.rect t)).set ↔ _
  rw [View.set_slice_whole, Rect.mem_set_unit]
  exact Iff.rfl

/-- Column `r` of a result array lies in the block of point `r / 128`. -/
def pointOf (i : S16x5504.Idx) : Fin cfg0.N := ⟨(i 1).val / 128, by
  have h1 : (i 1).val < 5504 := (i 1).isLt
  rw [show cfg0.N = 43 from N_0]; omega⟩

theorem cover_hi (i : S16x5504.Idx) : ∃ t : Fin cfg0.N, (cfg0.win 10).flush t = true ∧ i ∈ ((cfg0.win 10).blk t).view.set := by
  have h0 : (i 0).val < 16 := (i 0).isLt
  have h1 : (i 1).val < 5504 := (i 1).isLt
  obtain ⟨-, -, -, -, -, -, -, -, -, -, ⟨e0, e1⟩, -⟩ := idx_facts (pointOf i)
  have ht : (pointOf i).val = (i 1).val / 128 := rfl
  refine ⟨pointOf i, flush0_10 _, ?_⟩
  rw [mem_blk_hi]
  intro a
  match a with
  | ⟨0, _⟩ => show win0_10.index (pointOf i) (0 : Fin 2) * 16 ≤ (i 0).val ∧ (i 0).val < win0_10.index (pointOf i) (0 : Fin 2) * 16 + 16; omega
  | ⟨1, _⟩ => show win0_10.index (pointOf i) (1 : Fin 2) * 128 ≤ (i 1).val ∧ (i 1).val < win0_10.index (pointOf i) (1 : Fin 2) * 128 + 128; omega

theorem cover_lo (i : S16x5504.Idx) : ∃ t : Fin cfg0.N, (cfg0.win 11).flush t = true ∧ i ∈ ((cfg0.win 11).blk t).view.set := by
  have h0 : (i 0).val < 16 := (i 0).isLt
  have h1 : (i 1).val < 5504 := (i 1).isLt
  obtain ⟨-, -, -, -, -, -, -, -, -, -, -, ⟨e0, e1⟩⟩ := idx_facts (pointOf i)
  have ht : (pointOf i).val = (i 1).val / 128 := rfl
  refine ⟨pointOf i, flush0_11 _, ?_⟩
  rw [mem_blk_lo]
  intro a
  match a with
  | ⟨0, _⟩ => show win0_11.index (pointOf i) (0 : Fin 2) * 16 ≤ (i 0).val ∧ (i 0).val < win0_11.index (pointOf i) (0 : Fin 2) * 16 + 16; omega
  | ⟨1, _⟩ => show win0_11.index (pointOf i) (1 : Fin 2) * 128 ≤ (i 1).val ∧ (i 1).val < win0_11.index (pointOf i) (1 : Fin 2) * 128 + 128; omega

/-- The first result array after the run. -/
theorem final_hi (hR : Reals m c) : (dats m 0 c).arrAt 10 cfg0.N = Ghi m c :=
  (dats m 0 c).arrAt_eq_of_cover 10 (Ghi m c) (fun t _ => flushed_hi m c hR t) cover_hi

/-- The second result array after the run. -/
theorem final_lo (hR : Reals m c) : (dats m 0 c).arrAt 11 cfg0.N = Glo m c :=
  (dats m 0 c).arrAt_eq_of_cover 11 (Glo m c) (fun t _ => flushed_lo m c hR t) cover_lo

end Cert.KernelIdeal.Blocks

end
-- ==== Proof.Result.lean ====
/-
  The kernel's result.

  After the region the wrapper joins the two result arrays along the row axis of the weight (the column axis of the
  output): columns 0 … 5503 of the output are the first array, columns 5504 … 11007 the second. The first array holds the
  specification's rows 0 … 5503 and the second its rows 5504 … 11007, so the joined array is the specification `G`.
-/
import proofs.«430923_j18167711662189_3_alg».proof.Proof.Blocks
import Idealize.ShloMosaic.Lib.StableHlo.Run

noncomputable section

namespace Cert.KernelIdeal.Result

open Cert.KernelIdeal Cert.KernelIdeal.Gen Cert.KernelIdeal.Prefix Cert.KernelIdeal.Blocks
open Idealize.ShloMosaic Idealize.ShloMosaic.TcCoe Idealize.SL.Sem Idealize.ShloMosaic.ValueIdx DequantSpec
open Idealize.ShloMosaic.StableHlo

variable (m : (ℓ : Loc nD τ sig) → Buf (Elt Ideal) ℓ) (ρ : Dev nD → PrngReg)

/-- The specification at the launch contents of core `c`. -/
abbrev spec (c : Dev nD) : S16x11008.Idx → EReal := G (xA m c) (wA m c) (sA m c) (zA m c) (bA m c)

/-- The two halves, joined, are the whole. -/
theorem halves_eq (c : Dev nD) :
    concatenate S16x11008 1 [⟨S16x5504, Ghi m c⟩, ⟨S16x5504, Glo m c⟩] concatenates_S16x5504_S16x5504_S16x11008_d1 = spec m c := by
  funext i
  have h0 : (i 0).val < 16 := (i 0).isLt
  have h1 : (i 1).val < 11008 := (i 1).isLt
  by_cases h : (i 1).val < 5504
  · have hcat := concatenate_pair_apply_left (t := S16x11008) (s₁ := S16x5504) (s₂ := S16x5504)
      (1 : Fin S16x11008.rank) (Ghi m c) (Glo m c) concatenates_S16x5504_S16x5504_S16x11008_d1 i rfl
      (ix2 (⟨(i 0).val, h0⟩ : Fin 16) (⟨(i 1).val, h⟩ : Fin 5504))
      (by intro b; match b with | ⟨0, _⟩ => rfl | ⟨1, _⟩ => rfl)
    rw [hcat]
    rfl
  · have hcat := concatenate_pair_apply_right (t := S16x11008) (s₁ := S16x5504) (s₂ := S16x5504)
      (1 : Fin S16x11008.rank) (Ghi m c) (Glo m c) concatenates_S16x5504_S16x5504_S16x11008_d1 i rfl rfl
      (ix2 (⟨(i 0).val, h0⟩ : Fin 16) (⟨(i 1).val - 5504, by omega⟩ : Fin 5504))
      (by
        intro b hb
        match b with
        | ⟨0, _⟩ => rfl
        | ⟨1, _⟩ => exact absurd rfl hb)
      (by show (i 1).val - 5504 + 5504 = (i 1).val; omega)
    rw [hcat]
    show entry _ _ _ _ _ _ (loRow ⟨(i 1).val - 5504, _⟩) = entry _ _ _ _ _ _ ⟨(i 1).val, _⟩
    exact congrArg (entry (xA m c) (wA m c) (sA m c) (zA m c) (bA m c) ⟨(i 0).val, h0⟩)
      (Fin.ext (by show (i 1).val - 5504 + 5504 = (i 1).val; omega))

/-- What the result buffer holds after the wrapper's last line. -/
theorem tail_eq (c : Dev nD) (hR : Reals m c) :
    Pipeline.afterTail₀ cfgs (dats m) 0 (V0 m) [hostOps1] c main_v19 = spec m c := by
  have h10 := (Pipeline.withArrays_arr spec0 launch0.win.arr_inj c (V0 m c) (fun w => (dats m 0 c).arrAt w cfg0.N) 10).trans
    (final_hi m c hR)
  have h11 := (Pipeline.withArrays_arr spec0 launch0.win.arr_inj c (V0 m c) (fun w => (dats m 0 c).arrAt w cfg0.N) 11).trans
    (final_lo m c hR)
  unfold Pipeline.afterTail₀
  show StableHlo.after hostOps1 _ (Proc.devRef .tc main_v19) = _
  after_results
  exact (congrArg₂ (fun a b => concatenate S16x11008 1 [⟨S16x5504, a⟩, ⟨S16x5504, b⟩] concatenates_S16x5504_S16x5504_S16x11008_d1)
    h10 h11).trans (halves_eq m c)

/-- The kernel's run: every weakly fair execution ends with the result buffer at the specification of the launch
    contents and the arguments unchanged, when the activations, scales and zero points are real numbers. -/
theorem run (hR : ∀ c, Reals m c) :
    θ_run defs (onTc (τ := τ) (main (F := Ideal))) ⟨m, fun _ => 0, ρ⟩ (fun r => ∀ c : Dev nD,
      r.2.mem ((c.tc : Thread nD τ).loc main_v19) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans (tail_eq m c (hR c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The certificate of a 4-bit dequantize-and-multiply kernel against its jnp reference.

  The weight `W` ([11008, 4096]) is stored as 4-bit codes, two to a packed word, with one scale and one zero point per
  group of 64 consecutive columns; the reference forms `W = (code - zero) * scale` and returns `x · Wᵀ + bias`. The kernel
  never forms `W`: per block of 128 output rows it expands the scales to columns through a 0/1 selector product,
  multiplies the codes by them, takes the product with the activations, and accounts for the zero points group by group,
  `∑ g, (∑ j, x (64 g + j)) * (zero g * scale g)`, against activation sums the wrapper computes once. The two halves
  of the output rows read the same packed words (high and low nibble) and are joined at the end.

  frame_Kernel, frame_KernelIdeal — the generated frame of the one pipelined region.
  frame_ReferenceIdeal — the reference's generated run, its result dropped.
  preserves — the ideal pass dropped a round trip through the narrower float format, twice (once per half): the rule's
    statement at that shape.
  algebraic — both programs end at the function `G` of the arguments (Proof/Spec.lean): the reference by reading its run
    stage by stage (Proof/RefIsG.lean); the kernel by reading each point's stored block (Proof/Body.lean) over what the
    wrapper stages (Proof/Prefix.lean), block by block into the two result arrays (Proof/Blocks.lean) and through the
    final join (Proof/Result.lean). The two forms agree by distributing `x * ((n - z) * s)` and regrouping the sum over
    columns by groups (Proof/DequantLaw.lean), which needs the activations, scales and zero points to be real numbers:
    the precondition says so (Proof/Finite.lean).
-/
import proofs.«430923_j18167711662189_3_alg».proof.Defs
import proofs.«430923_j18167711662189_3_alg».proof.Proof.Gen.Kernel
import proofs.«430923_j18167711662189_3_alg».proof.Proof.Gen.Kernel.Frame
import proofs.«430923_j18167711662189_3_alg».proof.Proof.Gen.KernelIdeal
import proofs.«430923_j18167711662189_3_alg».proof.Proof.Gen.KernelIdeal.Frame
import proofs.«430923_j18167711662189_3_alg».proof.Proof.Gen.ReferenceIdeal
import proofs.«430923_j18167711662189_3_alg».proof.Proof.Gen.ReferenceIdeal.Run
import proofs.«430923_j18167711662189_3_alg».proof.Proof.Gen.ReferenceIdeal.Read
import proofs.«430923_j18167711662189_3_alg».proof.Proof.Gen.Pre_finite_inputs
import proofs.«430923_j18167711662189_3_alg».proof.Proof.Finite
import proofs.«430923_j18167711662189_3_alg».proof.Proof.RefIsG
import proofs.«430923_j18167711662189_3_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two ledger entries: a round trip f32 → bf16 → f32 of a [128, 64] block of scales is the identity at the exact values. -/
theorem preserves : Cert.preserves_Kernel_KernelIdeal :=
  ⟨IdealRules.truncf_extf.statement Cert.KernelIdeal.S128x64 .f32 .bf16,
    IdealRules.truncf_extf.statement Cert.KernelIdeal.S128x64 .f32 .bf16⟩

/-- Both programs end at `G` of the arguments. -/
theorem algebraic : Cert.algebraic_KernelIdeal_ReferenceIdeal := by
  intro m ρ m' ρ' hpre hagree
  have hfin : ∀ c, Cert.KernelIdeal.Blocks.Reals m c := fun c => by
    obtain ⟨hx, hs, hz, -⟩ := Cert.Finite.reals_of_pre _ _ _ _ _ (hpre c)
    exact ⟨hx, hs, hz⟩
  refine ⟨fun c => Cert.KernelIdeal.Result.spec m c, Cert.KernelIdeal.Result.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
